-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x1600000 : Shape := ⟨2, ![2, 1600000]⟩
abbrev S1600000x8 : Shape := ⟨2, ![1600000, 8]⟩
abbrev S136x64 : Shape := ⟨2, ![136, 64]⟩
abbrev S64 : Shape := ⟨1, ![64]⟩
abbrev S64x64 : Shape := ⟨2, ![64, 64]⟩
abbrev S64x1 : Shape := ⟨2, ![64, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S1600000x8 : S_.BroadcastsInDim S1600000x8 (![] : Fin 0 → Fin S1600000x8.rank)
  reducesTo_S1600000x8_S_d0_1 : S1600000x8.ReducesTo [0, 1] S_
  bcast_S_S136x64 : S_.BroadcastsInDim S136x64 (![] : Fin 0 → Fin S136x64.rank)
  reducesTo_S136x64_S_d0_1 : S136x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg8 : FVec F S64x1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  main_v38

def fn_part1 {F : FTy → Type} [FloatOps F] (main_arg5 : FVec F S64 .f32) (main_arg6 : FVec F S64x64 .f32) (main_arg7 : FVec F S64 .f32) (main_arg8 : FVec F S64x1 .f32) (main_v13 : IVec S_ 1) (main_v16 : IVec S136x64 1) : IVec S_ 1 :=
  let main_c_5 : IVec S_ 1 := constantI S_ 1 1#1
  let main_v17 : IVec S_ 1 := (fun x v => Host.reduce IntOp.andi x v reducesTo_S136x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S50000x64 .f32) (main_arg1 : FVec F S50000x3 .f32) (main_arg2 : IVec S2x1600000 32) (main_arg3 : FVec F S1600000x8 .f32) (main_arg4 : FVec F S136x64 .f32) (main_arg5 : FVec F S64 .f32) (main_arg6 : FVec F S64x64 .f32) (main_arg7 : FVec F S64 .f32) (main_arg8 : FVec F S64x1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S1600000x8 .f32 := Host.absf main_arg3
  let main_cst_2 : FVec F S_ .f32 := constant S_ .f32 0x7F800000#32
  let main_v10 : FVec F S1600000x8 .f32 := broadcastInDim S1600000x8 ![] bcast_S_S1600000x8 main_cst_2
  let main_v11 : IVec S1600000x8 1 := cmpf .olt main_v9 main_v10
  let main_c_3 : IVec S_ 1 := constantI S_ 1 1#1
  let main_v12 : IVec S_ 1 := (fun x v => Host.reduce IntOp.andi x v reducesTo_S1600000x8_S_d0_1 h_S_) main_v11 main_c_3
  let main_v13 : IVec S_ 1 := andi main_v8 main_v12
  let main_v14 : FVec F S136x64 .f32 := Host.absf main_arg4
  let main_cst_4 : FVec F S_ .f32 := constant S_ .f32 0x7F800000#32
  let main_v15 : FVec F S136x64 .f32 := broadcastInDim S136x64 ![] bcast_S_S136x64 main_cst_4
  let main_v16 : IVec S136x64 1 := cmpf .olt main_v14 main_v15
  fn_part1 (F := F) main_arg5 main_arg6 main_arg7 main_arg8 main_v13 main_v16
-- ==== Kernel.lean ====
abbrev S50000x64 : Shape := ⟨2, ![50000, 64]⟩
abbrev S50000x3 : Shape := ⟨2, ![50000, 3]⟩
abbrev S2x1600000 : Shape := ⟨2, ![2, 1600000]⟩
abbrev S1600000x8 : Shape := ⟨2, ![1600000, 8]⟩
abbrev S136x64 : Shape := ⟨2, ![136, 64]⟩
abbrev S64 : Shape := ⟨1, ![64]⟩
abbrev S64x64 : Shape := ⟨2, ![64, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x3 : Shape := ⟨2, ![1600000, 3]⟩
abbrev S8x64 : Shape := ⟨2, ![8, 64]⟩
abbrev S1x64 : Shape := ⟨2, ![1, 64]⟩
abbrev S4000x64 : Shape := ⟨2, ![4000, 64]⟩
abbrev S4000x8 : Shape := ⟨2, ![4000, 8]⟩
abbrev S4000x3 : Shape := ⟨2, ![4000, 3]⟩
abbrev S4000x1 : Shape := ⟨2, ![4000, 1]⟩
abbrev S4000 : Shape := ⟨1, ![4000]⟩

abbrev nBuf : Space → Nat
  | .hbm => 63
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x1600000, .i32⟩
  | .hbm, ⟨3, _⟩ => ⟨S1600000x8, .f32⟩
  | .hbm, ⟨4, _⟩ => ⟨S136x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x3, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x3, .f32⟩
  | .hbm, ⟨49, _⟩ => ⟨S64x64, .f32⟩
  | .hbm, ⟨50, _⟩ => ⟨S64x64, .f32⟩
  | .hbm, ⟨51, _⟩ => ⟨S8x64, .f32⟩
  | .hbm, ⟨52, _⟩ => ⟨S1x64, .f32⟩
  | .hbm, ⟨53, _⟩ => ⟨S1x64, .f32⟩
  | .hbm, ⟨54, _⟩ => ⟨S1600000x3, .f32⟩
  | .hbm, ⟨55, _⟩ => ⟨S_, .f32⟩
  | .hbm, ⟨56, _⟩ => ⟨S50000x3, .f32⟩
  | .hbm, ⟨57, _⟩ => ⟨S1600000x1, .i32⟩
  | .hbm, ⟨58, _⟩ => ⟨S50000x3, .f32⟩
  | .hbm, ⟨59, _⟩ => ⟨S_, .f32⟩
  | .hbm, ⟨60, _⟩ => ⟨S50000x3, .f32⟩
  | .hbm, ⟨61, _⟩ => ⟨S50000x3, .f32⟩
  | .hbm, ⟨62, _⟩ => ⟨S50000x3, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x8, .f32⟩
  | .local _ .vmem, ⟨5, _⟩ => ⟨S4000x8, .f32⟩
  | .local _ .vmem, ⟨6, _⟩ => ⟨S4000x3, .f32⟩
  | .local _ .vmem, ⟨7, _⟩ => ⟨S4000x3, .f32⟩
  | .local _ .vmem, ⟨8, _⟩ => ⟨S4000x3, .f32⟩
  | .local _ .vmem, ⟨9, _⟩ => ⟨S4000x3, .f32⟩
  | .local _ .vmem, ⟨10, _⟩ => ⟨S64x64, .f32⟩
  | .local _ .vmem, ⟨11, _⟩ => ⟨S64x64, .f32⟩
  | .local _ .vmem, ⟨12, _⟩ => ⟨S8x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S4000x3, .f32⟩
  | .local _ .vmem, ⟨18, _⟩ => ⟨S4000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S136x64_S64x64_0_0 : S136x64.Slices ![0, 0] S64x64
  slices_S136x64_S64x64_64_0 : S136x64.Slices ![64, 0] S64x64
  slices_S136x64_S8x64_128_0 : S136x64.Slices ![128, 0] S8x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S4000x8_S4000x8_0_0 : ∀ a, (![0, 0] : Fin 2 → Nat) a + S4000x8.size a ≤ S4000x8.size a
  h_S4000x8 : 0 < S4000x8.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  broadcasts_S4000x1_S4000x3 : S4000x1.Broadcasts S4000x3
  bcast_S_S50000x3 : S_.BroadcastsInDim S50000x3 (![] : Fin 0 → Fin S50000x3.rank)
  gather_S50000x64_S1600000x1_S1600000x64_1_0_n_n_0_1_164_wf : GatherDims.WF S50000x64 S1600000x1 S1600000x64 [1] [0] [] [0] [] 1 ![1, 64]
  gather_S50000x3_S1600000x1_S1600000x3_1_0_n_n_0_1_13_wf : GatherDims.WF S50000x3 S1600000x1 S1600000x3 [1] [0] [] [0] [] 1 ![1, 3]
  dot_S4000x64_S64x64_S4000x64_1_0_0_1_n_n_wf : DotDims.WF S4000x64 S64x64 S4000x64 [1] [0] [0] [1] [] []
  dot_S4000x8_S8x64_S4000x64_1_0_0_1_n_n_wf : DotDims.WF S4000x8 S8x64 S4000x64 [1] [0] [0] [1] [] []
  dot_S4000x64_S64x1_S4000x1_1_0_0_1_n_n_wf : DotDims.WF S4000x64 S64x1 S4000x1 [1] [0] [0] [1] [] []
  scatter_S50000x3_S1600000x1_S1600000x3_1_0_0_1_wf : ScatterDims.WF S50000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x8.size a ≤ S1600000x8.size a
  hwx0_2 : ∀ i : grid0.Coords, EltTy.bits .f32 = 32 ∨ (Rect.block (s := S1600000x8) S4000x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S1600000x3.size a
  hwx0_3 : ∀ i : grid0.Coords, EltTy.bits .f32 = 32 ∨ (Rect.block (s := S1600000x3) S4000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x3.size a ≤ S1600000x3.size a
  hwx0_4 : ∀ i : grid0.Coords, EltTy.bits .f32 = 32 ∨ (Rect.block (s := S1600000x3) S4000x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S8x64.size a
  hwx0_7 : ∀ i : grid0.Coords, EltTy.bits .f32 = 32 ∨ (Rect.block (s := S8x64) S8x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .f32 = 32 ∨ (Rect.block (s := S64x1) S64x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x3.size a ≤ S1600000x3.size a
  hwx0_12 : ∀ i : grid0.Coords, EltTy.bits .f32 = 32 ∨ (Rect.block (s := S1600000x3) S4000x3.size (cc0_transform_12 i) (hinb0_12 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x8_S8x64_S4000x64_1_0_0_1_n_n : DotDims S4000x8 S8x64 S4000x64 where
  lhsContracting := [1]
  rhsContracting := [0]
  lhsNonContracting := [0]
  rhsNonContracting := [1]
  lhsBatch := []
  rhsBatch := []
  wf := dot_S4000x8_S8x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf

abbrev win0_0 : Pipeline.Window sig grid0 :=
  Pipeline.Window.ofSpec (Memref.whole main_v10) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S4000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S8x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S4000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x1600000 : Shape := ⟨2, ![2, 1600000]⟩
abbrev S1600000x8 : Shape := ⟨2, ![1600000, 8]⟩
abbrev S136x64 : Shape := ⟨2, ![136, 64]⟩
abbrev S64 : Shape := ⟨1, ![64]⟩
abbrev S64x64 : Shape := ⟨2, ![64, 64]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S1600000x64 : Shape := ⟨2, ![1600000, 64]⟩
abbrev S1600000x136 : Shape := ⟨2, ![1600000, 136]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x1600000, .i32⟩
  | .hbm, ⟨3, _⟩ => ⟨S1600000x8, .f32⟩
  | .hbm, ⟨4, _⟩ => ⟨S136x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x3, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x3, .f32⟩
  | .hbm, ⟨31, _⟩ => ⟨S1600000x3, .f32⟩
  | .hbm, ⟨32, _⟩ => ⟨S1600000x3, .f32⟩
  | .hbm, ⟨33, _⟩ => ⟨S_, .f32⟩
  | .hbm, ⟨34, _⟩ => ⟨S1600000, .f32⟩
  | .hbm, ⟨35, _⟩ => ⟨S1600000x1, .f32⟩
  | .hbm, ⟨36, _⟩ => ⟨S_, .f32⟩
  | .hbm, ⟨37, _⟩ => ⟨S1600000x1, .f32⟩
  | .hbm, ⟨38, _⟩ => ⟨S1600000x1, .f32⟩
  | .hbm, ⟨39, _⟩ => ⟨S1600000x1, .f32⟩
  | .hbm, ⟨40, _⟩ => ⟨S_, .f32⟩
  | .hbm, ⟨41, _⟩ => ⟨S1600000x1, .f32⟩
  | .hbm, ⟨42, _⟩ => ⟨S1600000x1, .f32⟩
  | .hbm, ⟨43, _⟩ => ⟨S1600000x3, .f32⟩
  | .hbm, ⟨44, _⟩ => ⟨S1600000x3, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x136, .f32⟩
  | .hbm, ⟨64, _⟩ => ⟨S1600000x64, .f32⟩
  | .hbm, ⟨65, _⟩ => ⟨S1x64, .f32⟩
  | .hbm, ⟨66, _⟩ => ⟨S1600000x64, .f32⟩
  | .hbm, ⟨67, _⟩ => ⟨S1600000x64, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S1600000x64, .f32⟩
  | .hbm, ⟨75, _⟩ => ⟨S1600000x64, .f32⟩
  | .hbm, ⟨76, _⟩ => ⟨S1600000x64, .f32⟩
  | .hbm, ⟨77, _⟩ => ⟨S1600000x64, .f32⟩
  | .hbm, ⟨78, _⟩ => ⟨S1x64, .f32⟩
  | .hbm, ⟨79, _⟩ => ⟨S1600000x64, .f32⟩
  | .hbm, ⟨80, _⟩ => ⟨S1600000x64, .f32⟩
  | .hbm, ⟨81, _⟩ => ⟨S1600000x64, .f32⟩
  | .hbm, ⟨82, _⟩ => ⟨S1600000x64, .f32⟩
  | .hbm, ⟨83, _⟩ => ⟨S_, .f32⟩
  | .hbm, ⟨84, _⟩ => ⟨S1600000x64, .f32⟩
  | .hbm, ⟨85, _⟩ => ⟨S1600000x64, .f32⟩
  | .hbm, ⟨86, _⟩ => ⟨S_, .f32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S1600000x1, .f32⟩
  | .hbm, ⟨91, _⟩ => ⟨S1600000x3, .f32⟩
  | .hbm, ⟨92, _⟩ => ⟨S1600000x3, .f32⟩
  | .hbm, ⟨93, _⟩ => ⟨S_, .f32⟩
  | .hbm, ⟨94, _⟩ => ⟨S50000x3, .f32⟩
  | .hbm, ⟨95, _⟩ => ⟨S1600000x1, .i32⟩
  | .hbm, ⟨96, _⟩ => ⟨S50000x3, .f32⟩
  | .hbm, ⟨97, _⟩ => ⟨S_, .f32⟩
  | .hbm, ⟨98, _⟩ => ⟨S50000x3, .f32⟩
  | .hbm, ⟨99, _⟩ => ⟨S50000x3, .f32⟩
  | .hbm, ⟨100, _⟩ => ⟨S50000x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_10 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S_S1600000x1 : S_.BroadcastsInDim S1600000x1 (![] : Fin 0 → Fin S1600000x1.rank)
  bcast_S1600000x1_S1600000x3_0_1 : S1600000x1.BroadcastsInDim S1600000x3 (![0, 1] : Fin 2 → Fin S1600000x3.rank)
  concatenates_S1600000x64_S1600000x64_S1600000x8_S1600000x136_d1 : Shape.Concatenates [S1600000x64, S1600000x64, S1600000x8] S1600000x136 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S50000x3 : S_.BroadcastsInDim S50000x3 (![] : Fin 0 → Fin S50000x3.rank)
  gather_S50000x3_S1600000x1_S1600000x3_1_0_n_n_0_1_13_wf : GatherDims.WF S50000x3 S1600000x1 S1600000x3 [1] [0] [] [0] [] 1 ![1, 3]
  gather_S50000x64_S1600000x1_S1600000x64_1_0_n_n_0_1_164_wf : GatherDims.WF S50000x64 S1600000x1 S1600000x64 [1] [0] [] [0] [] 1 ![1, 64]
  dot_S1600000x136_S136x64_S1600000x64_1_0_0_1_n_n_wf : DotDims.WF S1600000x136 S136x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S50000x3_S1600000x1_S1600000x3_1_0_0_1_wf : ScatterDims.WF S50000x3 S1600000x1 S1600000x3 [1] [0] [0] 1

variable [Facts₀]

def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x136_S136x64_S1600000x64_1_0_0_1_n_n : DotDims S1600000x136 S136x64 S1600000x64 where
  lhsContracting := [1]
  rhsContracting := [0]
  lhsNonContracting := [0]
  rhsNonContracting := [1]
  lhsBatch := []
  rhsBatch := []
  wf := dot_S1600000x136_S136x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf

class Facts : Prop extends Facts₀ where

variable [Facts]
-- ==== Proof.EdgeMessage.lean ====
/-
  The per-edge coordinate message of an equivariant graph layer, as one function over the extended reals.

  For one edge, with the hidden features of its two end points (`hr`, `hc`, 64 entries each), its 8 edge
  attributes `ea` and the two end points' coordinates (`cr`, `cc`, 3 entries each):

    x₁ i = ((Σₐ hr a · wa a i + Σₐ hc a · wb a i) + Σₐ ea a · wc a i) + b₁ i        (64 entries)
    x₂ j = (Σᵢ silu (x₁ i) · w₂ i j) + b₂ j                                          (64 entries)
    s    = Σⱼ silu (x₂ j) · w₃ j
    d k  = cr k − cc k,   n = sqrt (Σⱼ d j · d j + ε) + 1
    message k = (d k / n) · s

  where silu x = x · logistic x. The first layer's weight is given as three row blocks `wa`, `wb`, `wc`
  of one 136-row matrix; `sum_rows_136` is the law that joins that form to a single sum over the 136 rows
  of the concatenated feature vector: a sum over 136 terms is the sum of its first 64, next 64 and last 8
  terms, which holds in any commutative additive monoid, the extended reals included.
-/
import Idealize.ShloMosaic.Lib.ValueIdx
import Idealize.ShloMosaic.PureOps.Ideal

noncomputable section

namespace Cert.EdgeMessage

open Idealize.ShloMosaic

/-- x · logistic x. -/
def silu (x : EReal) : EReal := x * Ideal.logistic x

/-- The first hidden layer before its activation, at unit `i`. -/
def hidden1 (hr hc : Fin 64 → EReal) (ea : Fin 8 → EReal) (wa wb : Fin 64 → Fin 64 → EReal) (wc : Fin 8 → Fin 64 → EReal)
    (b1 : Fin 64 → EReal) (i : Fin 64) : EReal :=
  (((∑ a : Fin 64, hr a * wa a i) + (∑ a : Fin 64, hc a * wb a i)) + (∑ a : Fin 8, ea a * wc a i)) + b1 i

/-- The second hidden layer before its activation, at unit `j`, from the first layer's pre-activations `x1`. -/
def hidden2 (x1 : Fin 64 → EReal) (w2 : Fin 64 → Fin 64 → EReal) (b2 : Fin 64 → EReal) (j : Fin 64) : EReal :=
  (∑ i : Fin 64, silu (x1 i) * w2 i j) + b2 j

/-- The scalar gate of the edge: the last layer, without a bias, applied to the activated second layer. -/
def gate (x2 : Fin 64 → EReal) (w3 : Fin 64 → EReal) : EReal :=
  ∑ j : Fin 64, silu (x2 j) * w3 j

/-- The coordinate difference of the edge over one plus its smoothed length, at coordinate `k`. `eps` is the
    smoothing constant under the square root and `one` the constant added to the length. -/
def direction (eps one : EReal) (cr cc : Fin 3 → EReal) (k : Fin 3) : EReal :=
  Ideal.div (cr k - cc k) (Ideal.sqrt ((∑ j : Fin 3, (cr j - cc j) * (cr j - cc j)) + eps) + one)

/-- The message of one edge at coordinate `k`. -/
def message (eps one : EReal) (hr hc : Fin 64 → EReal) (ea : Fin 8 → EReal) (cr cc : Fin 3 → EReal)
    (wa wb : Fin 64 → Fin 64 → EReal) (wc : Fin 8 → Fin 64 → EReal) (b1 : Fin 64 → EReal)
    (w2 : Fin 64 → Fin 64 → EReal) (b2 : Fin 64 → EReal) (w3 : Fin 64 → EReal) (k : Fin 3) : EReal :=
  direction eps one cr cc k * gate (hidden2 (hidden1 hr hc ea wa wb wc b1) w2 b2) w3

/-- A sum over 136 terms is the sum of its first 64, its next 64 and its last 8 terms. -/
theorem sum_rows_136 {M : Type*} [AddCommMonoid M] (f : Fin 136 → M) :
    (∑ k : Fin 136, f k)
      = ((∑ a : Fin 64, f ⟨a.val, by omega⟩) + (∑ a : Fin 64, f ⟨64 + a.val, by omega⟩))
          + (∑ a : Fin 8, f ⟨128 + a.val, by omega⟩) := by
  have h1 : (∑ k : Fin 136, f k) = ∑ k : Fin (128 + 8), f (Fin.cast (by norm_num) k) := rfl
  rw [h1, Fin.sum_univ_add]
  have h2 : (∑ k : Fin 128, f (Fin.cast (by norm_num) (Fin.castAdd 8 k)))
      = ∑ k : Fin (64 + 64), f ⟨(Fin.cast (by norm_num : 64 + 64 = 128) k).val, by have := k.isLt; simp only [Fin.val_cast]; omega⟩ := rfl
  rw [h2, Fin.sum_univ_add]
  rfl

end Cert.EdgeMessage

end
-- ==== Proof.LibTile.lean ====
/-
  Operations on a rank-2 tile read at an index given by coordinates: the two column forms of a
  keep-dimensions reduction (a vector as a column, a column spread along the rows), a sum along the rows
  or the columns as a sum over one coordinate, the column of row norms, and a matrix product with one
  contracted axis as a sum over that axis.
-/
import Idealize.ShloMosaic.Lib.ValueIdx
import Idealize.ShloMosaic.Lib.ValueLayout
import Idealize.ShloMosaic.Lib.Pipeline.Value
import Idealize.ShloMosaic.PureOps.Ideal.Laws

namespace Cert.Tile

open Idealize.ShloMosaic Idealize.ShloMosaic.ValueIdx

variable {α : Type}

/-! ## Layout -/

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums along one axis -/

/-- The entries of each row of an [a, b] tile summed: at p, the sum over the b columns. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src 0x00000000#32 h hφ hacc (ix1 p)).trans ?_
  exact Finset.sum_congr rfl fun k _ => congrArg src (funext fun ax => Fin.ext (by
    match ax with
    | ⟨0, _⟩ => rfl
    | ⟨1, _⟩ => rfl))

/-- The entries of each column of an [a, b] tile summed: at q, the sum over the a rows. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = 0x00000000#32) (q : Fin b) :
    multiReduction (F := Ideal) .add [0] ⟨1, ![b]⟩ src 0x00000000#32 h hφ hacc (ix1 q)
      = ∑ k : Fin a, src (ix2 k q) := by
  refine (Ideal.multiReduction_add_single src 0x00000000#32 h hφ hacc (ix1 q)).trans ?_
  exact Finset.sum_congr rfl fun k _ => congrArg src (funext fun ax => Fin.ext (by
    match ax with
    | ⟨0, _⟩ => rfl
    | ⟨1, _⟩ => rfl))

/-- The row sums kept as a column: at (p, u), the sum over the b columns of row p. -/
theorem rowSumCol_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩) (p : Fin a) (u : Fin 1) :
    shapeCast ⟨2, ![a, 1]⟩ (multiReduction (F := Ideal) .add [1] ⟨1, ![a]⟩ src 0x00000000#32 h hφ hacc) hc (ix2 p u)
      = ∑ k : Fin b, src (ix2 p k) :=
  (shapeCast_a_a1_apply _ hc p u).trans (rowSum_apply src h hφ hacc p)

/-- A square root read at an index. -/
theorem sqrt_apply {s : Shape} {φ : FTy} (v : FVec Ideal s φ) (i : s.Idx) : sqrt v i = Ideal.sqrt (v i) := rfl

/-- The column of Euclidean row norms spread along rows of length c: at (p, x), the square root of
    the sum of the squares of row p. -/
theorem normCol_apply {a b c : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, c]⟩) (p : Fin a) (x : Fin c) :
    broadcastTo ⟨2, ![a, c]⟩
        (sqrt (shapeCast ⟨2, ![a, 1]⟩ (multiReduction (F := Ideal) .add [1] ⟨1, ![a]⟩ (mulf X X) 0x00000000#32 h hφ hacc) hc))
        hb (ix2 p x)
      = Ideal.sqrt (∑ k : Fin b, X (ix2 p k) * X (ix2 p k)) :=
  (broadcastTo_a1_ab_apply _ hb p x).trans
    (congrArg Ideal.sqrt (rowSumCol_apply (mulf X X) h hφ hacc hc p 0))

/-! ## A matrix product with one contracted axis -/

theorem lhs_plain_0 {M K N : ℕ} (j : (⟨2, ![M, N]⟩ : Shape).Idx) (q : (DotDims.plain M K N).contr.Idx) :
    ((DotDims.plain M K N).lhsIdx j q 0).val = (j 0).val := rfl
theorem lhs_plain_1 {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
theorem rhs_plain_0 {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
theorem rhs_plain_1 {M K N : ℕ} (j : (⟨2, ![M, N]⟩ : Shape).Idx) (q : (DotDims.plain M K N).contr.Idx) :
    ((DotDims.plain M K N).rhsIdx j q 1).val = (j 1).val := rfl

/-- An [M, K] by [K, N] product into the zero accumulator reads, at (p, q), the sum over the K
    contracted coordinates of the left operand at (p, x) times the right at (x, q). -/
theorem matmul_plain_apply {M K N : ℕ} (prec : Option ContractPrecision)
    (lhs : FVec Ideal ⟨2, ![M, K]⟩ .f32) (rhs : FVec Ideal ⟨2, ![K, N]⟩ .f32) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) := by
  refine (Ideal.matmul_constant_zero_apply (DotDims.plain M K N) prec lhs rhs (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_plain_0 _ _
      | ⟨1, _⟩ => exact (lhs_plain_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_plain_0 _ _).trans hk
      | ⟨1, _⟩ => exact rhs_plain_1 _ _)
  rw [el, er]

/-! ## The patterns of one layer -/

/-- A tile with each row divided by its Euclidean norm: at (p, x), the entry over the square root of
    the sum of the squares of row p. -/
theorem normalize_apply {a b : ℕ} (X : FVec Ideal ⟨2, ![a, b]⟩ .f32)
    (h : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩) (p : Fin a) (x : Fin b) :
    divf X (broadcastTo ⟨2, ![a, b]⟩
        (sqrt (shapeCast ⟨2, ![a, 1]⟩ (multiReduction (F := Ideal) .add [1] ⟨1, ![a]⟩ (mulf X X) 0x00000000#32 h hφ hacc) hc))
        hb) (ix2 p x)
      = Ideal.div (X (ix2 p x)) (Ideal.sqrt (∑ k : Fin b, X (ix2 p k) * X (ix2 p k))) :=
  congrArg (Ideal.div (X (ix2 p x))) (normCol_apply X h hφ hacc hc hb p x)

/-- A dense layer with a rectifier and a multiplicative mask row, the weights given transposed:
    at (p, q), max (Σₓ X p x · WT x q + b q) 0 · mask q. -/
theorem dense_apply {M K N : ℕ} (prec : Option ContractPrecision)
    (X : FVec Ideal ⟨2, ![M, K]⟩ .f32) (WT : FVec Ideal ⟨2, ![K, N]⟩ .f32) (b mk : FVec Ideal ⟨2, ![1, N]⟩ .f32)
    (hw : (⟨2, ![K, N]⟩ : Shape).ShapeCasts ⟨2, ![K, N]⟩)
    (hb hm : (⟨2, ![1, N]⟩ : Shape).ShapeCasts ⟨2, ![1, N]⟩)
    (hbb hmb : (⟨2, ![1, N]⟩ : Shape).Broadcasts ⟨2, ![M, N]⟩) (p : Fin M) (q : Fin N) :
    mulf (maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)))
        (broadcastTo ⟨2, ![M, N]⟩ (shapeCast ⟨2, ![1, N]⟩ mk hm) hmb) (ix2 p q)
      = max ((∑ x : Fin K, X (ix2 p x) * WT (ix2 x q)) + b (ix2 (0 : Fin 1) q)) 0 * mk (ix2 (0 : Fin 1) q) :=
  congrArg₂ (· * ·)
    (congrArg₂ max
      (congrArg₂ (· + ·)
        ((matmul_plain_apply prec X _ p q).trans
          (Finset.sum_congr rfl fun x _ => congrArg (X (ix2 p x) * ·) (congrFun (shapeCast_self WT hw) (ix2 x q))))
        ((broadcastTo_1b_ab_apply _ hbb p q).trans (congrFun (shapeCast_self b hb) (ix2 (0 : Fin 1) q))))
      Ideal.ofBits_zero_f32)
    ((broadcastTo_1b_ab_apply _ hmb p q).trans (congrFun (shapeCast_self mk hm) (ix2 (0 : Fin 1) q)))

/-- The same without a mask: at (p, q), max (Σₓ X p x · WT x q + b q) 0. -/
theorem denseOut_apply {M K N : ℕ} (prec : Option ContractPrecision)
    (X : FVec Ideal ⟨2, ![M, K]⟩ .f32) (WT : FVec Ideal ⟨2, ![K, N]⟩ .f32) (b : FVec Ideal ⟨2, ![1, N]⟩ .f32)
    (hw : (⟨2, ![K, N]⟩ : Shape).ShapeCasts ⟨2, ![K, N]⟩)
    (hb : (⟨2, ![1, N]⟩ : Shape).ShapeCasts ⟨2, ![1, N]⟩)
    (hbb : (⟨2, ![1, N]⟩ : Shape).Broadcasts ⟨2, ![M, N]⟩) (p : Fin M) (q : Fin N) :
    maximumf
          (addf (matmul (F := Ideal) (DotDims.plain M K N) prec X (shapeCast ⟨2, ![K, N]⟩ WT hw)
                  (constant (F := Ideal) ⟨2, ![M, N]⟩ .f32 0x00000000#32))
                (broadcastTo ⟨2, ![M, N]⟩ (shapeCast ⟨2, ![1, N]⟩ b hb) hbb))
          (broadcast ⟨2, ![M, N]⟩ (Scalar.ofBits (F := Ideal) .f32 0x00000000#32)) (ix2 p q)
      = max ((∑ x : Fin K, X (ix2 p x) * WT (ix2 x q)) + b (ix2 (0 : Fin 1) q)) 0 :=
  congrArg₂ max
    (congrArg₂ (· + ·)
      ((matmul_plain_apply prec X _ p q).trans
        (Finset.sum_congr rfl fun x _ => congrArg (X (ix2 p x) * ·) (congrFun (shapeCast_self WT hw) (ix2 x q))))
      ((broadcastTo_1b_ab_apply _ hbb p q).trans (congrFun (shapeCast_self b hb) (ix2 (0 : Fin 1) q))))
    Ideal.ofBits_zero_f32

/-- The sum of the squares of every entry of a tile, kept as a [1, 1] value. -/
theorem totalSq_apply {a b : ℕ} (Y : FVec Ideal ⟨2, ![a, b]⟩ .f32)
    (h1 : Shape.Reduces ⟨2, ![a, b]⟩ [1] ⟨1, ![a]⟩) (hφ : FKind.Formats .f32)
    (hacc : (0x00000000#32 : BitVec 32) = 0x00000000#32)
    (hc : (⟨1, ![a]⟩ : Shape).ShapeCasts ⟨2, ![a, 1]⟩)
    (h0 : Shape.Reduces ⟨2, ![a, 1]⟩ [0] ⟨1, ![1]⟩) (hφ' : FKind.Formats .f32)
    (hacc' : (0x00000000#32 : BitVec 32) = 0x00000000#32)
    (hc1 : (⟨1, ![1]⟩ : Shape).ShapeCasts ⟨2, ![1, 1]⟩) (u w : Fin 1) :
    shapeCast ⟨2, ![1, 1]⟩
        (multiReduction (F := Ideal) .add [0] ⟨1, ![1]⟩
          (shapeCast ⟨2, ![a, 1]⟩ (multiReduction (F := Ideal) .add [1] ⟨1, ![a]⟩ (mulf Y Y) 0x00000000#32 h1 hφ hacc) hc)
          0x00000000#32 h0 hφ' hacc') hc1 (ix2 u w)
      = ∑ k : Fin a, ∑ j : Fin b, Y (ix2 k j) * Y (ix2 k j) :=
  (shapeCast_a_1a_apply _ hc1 u w).trans
    ((colSum_apply _ h0 hφ' hacc' w).trans
      (Finset.sum_congr rfl fun k _ => rowSumCol_apply (mulf Y Y) h1 hφ hacc hc k w))

/-- A row accumulator plus, at each column q, the sum over the rows k of V k q times the sum of row k
    of U. -/
theorem sdAcc_apply {a b c : ℕ} (U : FVec Ideal ⟨2, ![a, c]⟩ .f32) (V : FVec Ideal ⟨2, ![a, b]⟩ .f32)
    (acc : FVec Ideal ⟨2, ![1, b]⟩ .f32)
    (h1 : Shape.Reduces ⟨2, ![a, c]⟩ [1] ⟨1, ![a]⟩) (hφ : FKind.Formats .f32)
    (hacc : (0x00000000#32 : BitVec 32) = 0x00000000#32)
    (hc : (⟨1, ![a]⟩ : Shape).ShapeCasts ⟨2, ![a, 1]⟩)
    (hb : (⟨2, ![a, 1]⟩ : Shape).Broadcasts ⟨2, ![a, b]⟩)
    (h0 : Shape.Reduces ⟨2, ![a, b]⟩ [0] ⟨1, ![b]⟩) (hφ' : FKind.Formats .f32)
    (hacc' : (0x00000000#32 : BitVec 32) = 0x00000000#32)
    (hc1 : (⟨1, ![b]⟩ : Shape).ShapeCasts ⟨2, ![1, b]⟩)
    (hs : (⟨2, ![1, b]⟩ : Shape).ShapeCasts ⟨2, ![1, b]⟩) (u : Fin 1) (q : Fin b) :
    shapeCast ⟨2, ![1, b]⟩
        (addf acc
          (shapeCast ⟨2, ![1, b]⟩
            (multiReduction (F := Ideal) .add [0] ⟨1, ![b]⟩
              (mulf V (broadcastTo ⟨2, ![a, b]⟩
                (shapeCast ⟨2, ![a, 1]⟩ (multiReduction (F := Ideal) .add [1] ⟨1, ![a]⟩ U 0x00000000#32 h1 hφ hacc) hc) hb))
              0x00000000#32 h0 hφ' hacc') hc1)) hs (ix2 u q)
      = acc (ix2 u q) + ∑ k : Fin a, V (ix2 k q) * ∑ x : Fin c, U (ix2 k x) :=
  (congrFun (shapeCast_self _ hs) (ix2 u q)).trans
    (congrArg (acc (ix2 u q) + ·)
      ((shapeCast_a_1a_apply _ hc1 u q).trans
        ((colSum_apply _ h0 hφ' hacc' q).trans
          (Finset.sum_congr rfl fun k _ => congrArg (V (ix2 k q) * ·)
            ((broadcastTo_a1_ab_apply _ hb k q).trans (rowSumCol_apply U h1 hφ hacc hc k 0))))))

end Cert.Tile
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.TileMessage.lean ====
/-
  One tile of 4000 edges: the value the kernel body stores, read at edge `p` of the tile and coordinate `q`,
  is the edge's message (Proof/EdgeMessage.lean) of row `p` of each per-edge block and of the whole weight
  blocks. Over the extended reals a change of float format is the identity, a matrix product into the zero
  accumulator is the plain sum over the contracted coordinate, and a lane sum is a plain sum.
-/
import proofs.«100742_j19748259627798_1_alg».proof.Proof.Gen.KernelIdeal.Skeleton
import proofs.«100742_j19748259627798_1_alg».proof.Proof.EdgeMessage
import proofs.«100742_j19748259627798_1_alg».proof.Proof.LibTile
import proofs.«100742_j19748259627798_1_alg».proof.Proof.LibPlainProduct

noncomputable section

namespace Cert.KernelIdeal.TileMessage

open Idealize.ShloMosaic Idealize.ShloMosaic.ValueIdx Cert.KernelIdeal Cert.KernelIdeal.Gen Cert.EdgeMessage

/-- The smoothing constant under the square root, as the program spells it. -/
abbrev eps : EReal := Ideal.ofBits .f32 0x322BCC77#32
/-- The constant added to the length. -/
abbrev one : EReal := Ideal.ofBits .f32 0x3F800000#32

/-! ## The three matrix products of the body -/

/-- Each product record of the body is the plain [M, K] by [K, N] contraction. -/
theorem dot_hidden : dot_S4000x64_S64x64_S4000x64_1_0_0_1_n_n = DotDims.plain 4000 64 64 := rfl
theorem dot_attr : dot_S4000x8_S8x64_S4000x64_1_0_0_1_n_n = DotDims.plain 4000 8 64 := rfl
theorem dot_gate : dot_S4000x64_S64x1_S4000x1_1_0_0_1_n_n = DotDims.plain 4000 64 1 := rfl

/-- A [4000, 64] by [64, 64] product into the zero accumulator, at (p, q): the sum over the 64 contracted coordinates. -/
theorem prod_hidden_apply {φ₁ φ₂ : FTy} (lhs : FVec Ideal S4000x64 φ₁) (rhs : FVec Ideal S64x64 φ₂) (p : Fin 4000) (q : Fin 64) :
    matmul (F := Ideal) dot_S4000x64_S64x64_S4000x64_1_0_0_1_n_n none lhs rhs
        (constant (F := Ideal) S4000x64 .f32 0x00000000#32) (ix2 p q)
      = ∑ x : Fin 64, lhs (ix2 p x) * rhs (ix2 x q) := by
  rw [dot_hidden]
  exact Cert.PlainProduct.matmul_zero_apply none lhs rhs p q

/-- A [4000, 8] by [8, 64] product into the zero accumulator, at (p, q): the sum over the 8 contracted coordinates. -/
theorem prod_attr_apply {φ₁ φ₂ : FTy} (lhs : FVec Ideal S4000x8 φ₁) (rhs : FVec Ideal S8x64 φ₂) (p : Fin 4000) (q : Fin 64) :
    matmul (F := Ideal) dot_S4000x8_S8x64_S4000x64_1_0_0_1_n_n none lhs rhs
        (constant (F := Ideal) S4000x64 .f32 0x00000000#32) (ix2 p q)
      = ∑ x : Fin 8, lhs (ix2 p x) * rhs (ix2 x q) := by
  rw [dot_attr]
  exact Cert.PlainProduct.matmul_zero_apply none lhs rhs p q

/-- A [4000, 64] by [64, 1] product into the zero accumulator, at (p, u): the sum over the 64 contracted coordinates. -/
theorem prod_gate_apply {φ₁ φ₂ : FTy} (lhs : FVec Ideal S4000x64 φ₁) (rhs : FVec Ideal S64x1 φ₂) (p : Fin 4000) (u : Fin 1) :
    matmul (F := Ideal) dot_S4000x64_S64x1_S4000x1_1_0_0_1_n_n none lhs rhs
        (constant (F := Ideal) S4000x1 .f32 0x00000000#32) (ix2 p u)
      = ∑ x : Fin 64, lhs (ix2 p x) * rhs (ix2 x u) := by
  rw [dot_gate]
  exact Cert.PlainProduct.matmul_zero_apply none lhs rhs p u

/-! ## The layers, read at an edge of the tile -/

/-- The first layer before its activation, at (p, i): the three products of the row blocks plus the bias row. -/
theorem layer1_apply (x0 x1 : FVec Ideal S4000x64 .f32) (x2 : FVec Ideal S4000x8 .f32)
    (x5 x6 : FVec Ideal S64x64 .f32) (x7 : FVec Ideal S8x64 .f32) (x8 : FVec Ideal S1x64 .f32)
    (hn : FTy.bits .bf16 < FTy.bits .f32)
    (ha : S4000x64.ShapeCasts S4000x64) (hw : S64x64.ShapeCasts S64x64) (hc : S8x64.ShapeCasts S8x64)
    (hb : S1x64.ShapeCasts S1x64) (hbb : S1x64.Broadcasts S4000x64) (p : Fin 4000) (i : Fin 64) :
    addf (addf (addf
          (matmul (F := Ideal) dot_S4000x64_S64x64_S4000x64_1_0_0_1_n_n none
            (truncf .bf16 (shapeCast S4000x64 x0 ha) hn) (truncf .bf16 (shapeCast S64x64 x5 hw) hn)
            (constant (F := Ideal) S4000x64 .f32 0x00000000#32))
          (matmul (F := Ideal) dot_S4000x64_S64x64_S4000x64_1_0_0_1_n_n none
            (truncf .bf16 (shapeCast S4000x64 x1 ha) hn) (truncf .bf16 (shapeCast S64x64 x6 hw) hn)
            (constant (F := Ideal) S4000x64 .f32 0x00000000#32)))
          (matmul (F := Ideal) dot_S4000x8_S8x64_S4000x64_1_0_0_1_n_n none
            (truncf .bf16 x2 hn) (truncf .bf16 (shapeCast S8x64 x7 hc) hn)
            (constant (F := Ideal) S4000x64 .f32 0x00000000#32)))
        (broadcastTo S4000x64 (shapeCast S1x64 x8 hb) hbb) (ix2 p i)
      = hidden1 (fun a => x0 (ix2 p a)) (fun a => x1 (ix2 p a)) (fun a => x2 (ix2 p a))
          (fun a i => x5 (ix2 a i)) (fun a i => x6 (ix2 a i)) (fun a i => x7 (ix2 a i))
          (fun i => x8 (ix2 (0 : Fin 1) i)) i :=
  congrArg₂ (· + ·)
    (congrArg₂ (· + ·)
      (congrArg₂ (· + ·)
        ((prod_hidden_apply _ _ p i).trans (Finset.sum_congr rfl fun a _ => congrArg₂ (· * ·)
          (congrFun (shapeCast_self x0 ha) (ix2 p a)) (congrFun (shapeCast_self x5 hw) (ix2 a i))))
        ((prod_hidden_apply _ _ p i).trans (Finset.sum_congr rfl fun a _ => congrArg₂ (· * ·)
          (congrFun (shapeCast_self x1 ha) (ix2 p a)) (congrFun (shapeCast_self x6 hw) (ix2 a i)))))
      ((prod_attr_apply _ _ p i).trans (Finset.sum_congr rfl fun a _ => congrArg (x2 (ix2 p a) * ·)
        (congrFun (shapeCast_self x7 hc) (ix2 a i)))))
    ((broadcastTo_1b_ab_apply _ hbb p i).trans (congrFun (shapeCast_self x8 hb) (ix2 (0 : Fin 1) i)))

/-- x · logistic x of a tile, carried to the narrow format, read at an index. -/
theorem silu_apply {s : Shape} (v : FVec Ideal s .f32) (hn : FTy.bits .bf16 < FTy.bits .f32) (i : s.Idx) :
    (truncf .bf16 (mulf v (logistic v)) hn : FVec Ideal s .bf16) i = silu (v i) := rfl

/-- The second layer before its activation, at (p, j): the product of the activated first layer with the second
    weight block plus the second bias row. -/
theorem pay2_apply (x0 x1 : Vec Ideal S4000x64 .f32) (x2 : Vec Ideal S4000x8 .f32)
    (x5 x6 : Vec Ideal S64x64 .f32) (x7 : Vec Ideal S8x64 .f32) (x8 : Vec Ideal S1x64 .f32) (x9 : Vec Ideal S64x64 .f32)
    (x10 : Vec Ideal S1x64 .f32) (p : Fin 4000) (j : Fin 64) :
    k0_pay2 (F := Ideal) x0 x1 x2 x5 x6 x7 x8 x9 x10 (ix2 p j)
      = hidden2 (hidden1 (fun a => x0 (ix2 p a)) (fun a => x1 (ix2 p a)) (fun a => x2 (ix2 p a))
            (fun a i => x5 (ix2 a i)) (fun a i => x6 (ix2 a i)) (fun a i => x7 (ix2 a i))
            (fun i => x8 (ix2 (0 : Fin 1) i)))
          (fun i j => x9 (ix2 i j)) (fun j => x10 (ix2 (0 : Fin 1) j)) j := by
  unfold k0_pay2 hidden2
  exact congrArg₂ (· + ·)
    ((prod_hidden_apply _ _ p j).trans (Finset.sum_congr rfl fun i _ => congrArg (· * x9 (ix2 i j))
      ((silu_apply _ _ (ix2 p i)).trans
        (congrArg silu (layer1_apply x0 x1 x2 x5 x6 x7 x8 _ _ _ _ _ _ p i)))))
    ((broadcastTo_1b_ab_apply _ _ p j).trans (congrFun (shapeCast_self x10 _) (ix2 (0 : Fin 1) j)))

/-- The stored tile at (p, q) is the message of the tile's edge p at coordinate q. -/
theorem stored_apply (x0 x1 : Vec Ideal S4000x64 .f32) (x2 : Vec Ideal S4000x8 .f32) (x3 x4 : Vec Ideal S4000x3 .f32)
    (x5 x6 : Vec Ideal S64x64 .f32) (x7 : Vec Ideal S8x64 .f32) (x8 : Vec Ideal S1x64 .f32) (x9 : Vec Ideal S64x64 .f32)
    (x10 : Vec Ideal S1x64 .f32) (x11 : Vec Ideal S64x1 .f32) (p : Fin 4000) (q : Fin 3) :
    k0_pay1 (F := Ideal) (k0_pay2 x0 x1 x2 x5 x6 x7 x8 x9 x10) (k0_pay3 x0 x1 x2 x5 x6 x7 x8 x9 x10) x11 x3 x4 (ix2 p q)
      = message eps one (fun a => x0 (ix2 p a)) (fun a => x1 (ix2 p a)) (fun a => x2 (ix2 p a))
          (fun k => x3 (ix2 p k)) (fun k => x4 (ix2 p k))
          (fun a i => x5 (ix2 a i)) (fun a i => x6 (ix2 a i)) (fun a i => x7 (ix2 a i)) (fun i => x8 (ix2 (0 : Fin 1) i))
          (fun i j => x9 (ix2 i j)) (fun j => x10 (ix2 (0 : Fin 1) j)) (fun j => x11 (ix2 j (0 : Fin 1))) q := by
  unfold k0_pay1 message direction gate
  refine congrArg₂ (· * ·) (congrArg₂ Ideal.div ?_ ?_) ?_
  · -- the coordinate difference at (p, q)
    exact congrArg₂ (· - ·) (congrFun (shapeCast_self x3 _) (ix2 p q)) (congrFun (shapeCast_self x4 _) (ix2 p q))
  · -- one plus the smoothed length: the column at (p, 0), spread along the row
    refine (Cert.Tile.broadcastTo_a1_ab_apply _ _ p q).trans ?_
    refine congrArg (· + one) (congrArg Ideal.sqrt (congrArg (· + eps) ?_))
    refine (Cert.Tile.rowSumCol_apply _ _ _ _ _ p 0).trans (Finset.sum_congr rfl fun k _ => ?_)
    exact congrArg₂ (· * ·)
      (congrArg₂ (· - ·) (congrFun (shapeCast_self x3 _) (ix2 p k)) (congrFun (shapeCast_self x4 _) (ix2 p k)))
      (congrArg₂ (· - ·) (congrFun (shapeCast_self x3 _) (ix2 p k)) (congrFun (shapeCast_self x4 _) (ix2 p k)))
  · -- the gate: the column at (p, 0) of the last product, spread along the row
    refine (Cert.Tile.broadcastTo_a1_ab_apply _ _ p q).trans ?_
    refine (prod_gate_apply _ _ p 0).trans (Finset.sum_congr rfl fun j _ => ?_)
    exact congrArg (· * x11 (ix2 j (0 : Fin 1)))
      (congrArg silu (pay2_apply x0 x1 x2 x5 x6 x7 x8 x9 x10 p j))

end Cert.KernelIdeal.TileMessage

end
-- ==== Proof.TileArray.lean ====
/-
  From tiles to the whole array. The kernel's grid has 400 points; point `t` works on edges 4000·t … 4000·t + 3999:
  its five per-edge input blocks are those rows of the gathered features, the edge attributes and the gathered
  coordinates, its seven weight and bias blocks are the whole arrays, and it writes back rows 4000·t … 4000·t + 3999
  of the output. Each written row is the edge's message (Proof/TileMessage.lean), the 400 blocks cover every edge,
  so after the run the output array holds every edge's message.
-/
import proofs.«100742_j19748259627798_1_alg».proof.Proof.Gen.KernelIdeal.Frame
import proofs.«100742_j19748259627798_1_alg».proof.Proof.TileMessage
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.TileArray

open Cert.KernelIdeal Cert.KernelIdeal.Gen Cert.EdgeMessage Cert.KernelIdeal.TileMessage

variable (m : (ℓ : Loc nD τ sig) → Buf (Elt Ideal) ℓ) (ρ : Dev nD → PrngReg)

/-- The message depends on its twelve accessors only through their values. -/
theorem message_congr {e o : EReal} {hr hr' hc hc' : Fin 64 → EReal} {ea ea' : Fin 8 → EReal} {cr cr' cc cc' : Fin 3 → EReal}
    {wa wa' wb wb' : Fin 64 → Fin 64 → EReal} {wc wc' : Fin 8 → Fin 64 → EReal} {b1 b1' : Fin 64 → EReal}
    {w2 w2' : Fin 64 → Fin 64 → EReal} {b2 b2' : Fin 64 → EReal} {w3 w3' : Fin 64 → EReal} {k k' : Fin 3}
    (h0 : hr = hr') (h1 : hc = hc') (h2 : ea = ea') (h3 : cr = cr') (h4 : cc = cc') (h5 : wa = wa') (h6 : wb = wb')
    (h7 : wc = wc') (h8 : b1 = b1') (h9 : w2 = w2') (h10 : b2 = b2') (h11 : w3 = w3') (hk : k = k') :
    message e o hr hc ea cr cc wa wb wc b1 w2 b2 w3 k = message e o hr' hc' ea' cr' cc' wa' wb' wc' b1' w2' b2' w3' k' := by
  subst h0 h1 h2 h3 h4 h5 h6 h7 h8 h9 h10 h11 hk
  rfl

/-! ## Each window's block at a point -/

/-- Window 0's block at point `t` is rows 4000·t … 4000·t + 3999 of its array. -/
theorem rows0 (c : Dev nD) (t : Fin cfg0.N) (x : S4000x64.Idx) (k : S1600000x64.Idx)
    (hk0 : (k 0).val = 4000 * t.val + (x 0).val) (hk1 : (k 1).val = (x 1).val) :
    (iblk m c 0 t : Vec Ideal S4000x64 .f32) x = (V m c main_v10 : S1600000x64.Idx → EReal) k := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_v10 _ = V m c main_v10 _
  congr 1
  funext a
  apply Fin.ext
  match a with
  | ⟨0, _⟩ => show win0_0.index t 0 * 4000 + 1 * (x 0).val = (k 0).val; rw [hi.1, hk0]; omega
  | ⟨1, _⟩ => show win0_0.index t 1 * 64 + 1 * (x 1).val = (k 1).val; rw [hi.2, hk1]; omega

/-- Window 1's block at point `t` is rows 4000·t … 4000·t + 3999 of its array. -/
theorem rows1 (c : Dev nD) (t : Fin cfg0.N) (x : S4000x64.Idx) (k : S1600000x64.Idx)
    (hk0 : (k 0).val = 4000 * t.val + (x 0).val) (hk1 : (k 1).val = (x 1).val) :
    (iblk m c 1 t : Vec Ideal S4000x64 .f32) x = (V m c main_v17 : S1600000x64.Idx → EReal) k := by
  have hi : win0_1.index t 0 = t.val ∧ win0_1.index t 1 = 0 :=
    (by decide +kernel : ∀ t : Fin grid0.N, win0_1.index t 0 = t.val ∧ win0_1.index t 1 = 0) t
  unfold iblk
  rw [View.read_apply]
  show V m c main_v17 _ = V m c main_v17 _
  congr 1
  funext a
  apply Fin.ext
  match a with
  | ⟨0, _⟩ => show win0_1.index t 0 * 4000 + 1 * (x 0).val = (k 0).val; rw [hi.1, hk0]; omega
  | ⟨1, _⟩ => show win0_1.index t 1 * 64 + 1 * (x 1).val = (k 1).val; rw [hi.2, hk1]; omega

/-- Window 2's block at point `t` is rows 4000·t … 4000·t + 3999 of its array. -/
theorem rows2 (c : Dev nD) (t : Fin cfg0.N) (x : S4000x8.Idx) (k : S1600000x8.Idx)
    (hk0 : (k 0).val = 4000 * t.val + (x 0).val) (hk1 : (k 1).val = (x 1).val) :
    (iblk m c 2 t : Vec Ideal S4000x8 .f32) x = (V m c main_arg3 : S1600000x8.Idx → EReal) k := by
  have hi : win0_2.index t 0 = t.val ∧ win0_2.index t 1 = 0 :=
    (by decide +kernel : ∀ t : Fin grid0.N, win0_2.index t 0 = t.val ∧ win0_2.index t 1 = 0) t
  unfold iblk
  rw [View.read_apply]
  show V m c main_arg3 _ = V m c main_arg3 _
  congr 1
  funext a
  apply Fin.ext
  match a with
  | ⟨0, _⟩ => show win0_2.index t 0 * 4000 + 1 * (x 0).val = (k 0).val; rw [hi.1, hk0]; omega
  | ⟨1, _⟩ => show win0_2.index t 1 * 8 + 1 * (x 1).val = (k 1).val; rw [hi.2, hk1]; omega

/-- Window 3's block at point `t` is rows 4000·t … 4000·t + 3999 of its array. -/
theorem rows3 (c : Dev nD) (t : Fin cfg0.N) (x : S4000x3.Idx) (k : S1600000x3.Idx)
    (hk0 : (k 0).val = 4000 * t.val + (x 0).val) (hk1 : (k 1).val = (x 1).val) :
    (iblk m c 3 t : Vec Ideal S4000x3 .f32) x = (V m c main_v24 : S1600000x3.Idx → EReal) k := by
  have hi : win0_3.index t 0 = t.val ∧ win0_3.index t 1 = 0 :=
    (by decide +kernel : ∀ t : Fin grid0.N, win0_3.index t 0 = t.val ∧ win0_3.index t 1 = 0) t
  unfold iblk
  rw [View.read_apply]
  show V m c main_v24 _ = V m c main_v24 _
  congr 1
  funext a
  apply Fin.ext
  match a with
  | ⟨0, _⟩ => show win0_3.index t 0 * 4000 + 1 * (x 0).val = (k 0).val; rw [hi.1, hk0]; omega
  | ⟨1, _⟩ => show win0_3.index t 1 * 3 + 1 * (x 1).val = (k 1).val; rw [hi.2, hk1]; omega

/-- Window 4's block at point `t` is rows 4000·t … 4000·t + 3999 of its array. -/
theorem rows4 (c : Dev nD) (t : Fin cfg0.N) (x : S4000x3.Idx) (k : S1600000x3.Idx)
    (hk0 : (k 0).val = 4000 * t.val + (x 0).val) (hk1 : (k 1).val = (x 1).val) :
    (iblk m c 4 t : Vec Ideal S4000x3 .f32) x = (V m c main_v31 : S1600000x3.Idx → EReal) k := by
  have hi : win0_4.index t 0 = t.val ∧ win0_4.index t 1 = 0 :=
    (by decide +kernel : ∀ t : Fin grid0.N, win0_4.index t 0 = t.val ∧ win0_4.index t 1 = 0) t
  unfold iblk
  rw [View.read_apply]
  show V m c main_v31 _ = V m c main_v31 _
  congr 1
  funext a
  apply Fin.ext
  match a with
  | ⟨0, _⟩ => show win0_4.index t 0 * 4000 + 1 * (x 0).val = (k 0).val; rw [hi.1, hk0]; omega
  | ⟨1, _⟩ => show win0_4.index t 1 * 3 + 1 * (x 1).val = (k 1).val; rw [hi.2, hk1]; omega

/-- Window 5's block at every point is its whole array. -/
theorem whole5 (c : Dev nD) (t : Fin cfg0.N) (x : S64x64.Idx) :
    (iblk m c 5 t : Vec Ideal S64x64 .f32) x = (V m c main_v32 : S64x64.Idx → EReal) x := by
  have hi : win0_5.index t 0 = 0 ∧ win0_5.index t 1 = 0 :=
    (by decide +kernel : ∀ t : Fin grid0.N, win0_5.index t 0 = 0 ∧ win0_5.index t 1 = 0) t
  unfold iblk
  rw [View.read_apply]
  show V m c main_v32 _ = V m c main_v32 _
  congr 1
  funext a
  apply Fin.ext
  match a with
  | ⟨0, _⟩ => show win0_5.index t 0 * 64 + 1 * (x 0).val = (x 0).val; rw [hi.1]; omega
  | ⟨1, _⟩ => show win0_5.index t 1 * 64 + 1 * (x 1).val = (x 1).val; rw [hi.2]; omega

/-- Window 6's block at every point is its whole array. -/
theorem whole6 (c : Dev nD) (t : Fin cfg0.N) (x : S64x64.Idx) :
    (iblk m c 6 t : Vec Ideal S64x64 .f32) x = (V m c main_v33 : S64x64.Idx → EReal) x := by
  have hi : win0_6.index t 0 = 0 ∧ win0_6.index t 1 = 0 :=
    (by decide +kernel : ∀ t : Fin grid0.N, win0_6.index t 0 = 0 ∧ win0_6.index t 1 = 0) t
  unfold iblk
  rw [View.read_apply]
  show V m c main_v33 _ = V m c main_v33 _
  congr 1
  funext a
  apply Fin.ext
  match a with
  | ⟨0, _⟩ => show win0_6.index t 0 * 64 + 1 * (x 0).val = (x 0).val; rw [hi.1]; omega
  | ⟨1, _⟩ => show win0_6.index t 1 * 64 + 1 * (x 1).val = (x 1).val; rw [hi.2]; omega

/-- Window 7's block at every point is its whole array. -/
theorem whole7 (c : Dev nD) (t : Fin cfg0.N) (x : S8x64.Idx) :
    (iblk m c 7 t : Vec Ideal S8x64 .f32) x = (V m c main_v34 : S8x64.Idx → EReal) x := by
  have hi : win0_7.index t 0 = 0 ∧ win0_7.index t 1 = 0 :=
    (by decide +kernel : ∀ t : Fin grid0.N, win0_7.index t 0 = 0 ∧ win0_7.index t 1 = 0) t
  unfold iblk
  rw [View.read_apply]
  show V m c main_v34 _ = V m c main_v34 _
  congr 1
  funext a
  apply Fin.ext
  match a with
  | ⟨0, _⟩ => show win0_7.index t 0 * 8 + 1 * (x 0).val = (x 0).val; rw [hi.1]; omega
  | ⟨1, _⟩ => show win0_7.index t 1 * 64 + 1 * (x 1).val = (x 1).val; rw [hi.2]; omega

/-- Window 8's block at every point is its whole array. -/
theorem whole8 (c : Dev nD) (t : Fin cfg0.N) (x : S1x64.Idx) :
    (iblk m c 8 t : Vec Ideal S1x64 .f32) x = (V m c main_v35 : S1x64.Idx → EReal) x := by
  have hi : win0_8.index t 0 = 0 ∧ win0_8.index t 1 = 0 :=
    (by decide +kernel : ∀ t : Fin grid0.N, win0_8.index t 0 = 0 ∧ win0_8.index t 1 = 0) t
  unfold iblk
  rw [View.read_apply]
  show V m c main_v35 _ = V m c main_v35 _
  congr 1
  funext a
  apply Fin.ext
  match a with
  | ⟨0, _⟩ => show win0_8.index t 0 * 1 + 1 * (x 0).val = (x 0).val; rw [hi.1]; omega
  | ⟨1, _⟩ => show win0_8.index t 1 * 64 + 1 * (x 1).val = (x 1).val; rw [hi.2]; omega

/-- Window 9's block at every point is its whole array. -/
theorem whole9 (c : Dev nD) (t : Fin cfg0.N) (x : S64x64.Idx) :
    (iblk m c 9 t : Vec Ideal S64x64 .f32) x = (V m c main_arg6 : S64x64.Idx → EReal) x := by
  have hi : win0_9.index t 0 = 0 ∧ win0_9.index t 1 = 0 :=
    (by decide +kernel : ∀ t : Fin grid0.N, win0_9.index t 0 = 0 ∧ win0_9.index t 1 = 0) t
  unfold iblk
  rw [View.read_apply]
  show V m c main_arg6 _ = V m c main_arg6 _
  congr 1
  funext a
  apply Fin.ext
  match a with
  | ⟨0, _⟩ => show win0_9.index t 0 * 64 + 1 * (x 0).val = (x 0).val; rw [hi.1]; omega
  | ⟨1, _⟩ => show win0_9.index t 1 * 64 + 1 * (x 1).val = (x 1).val; rw [hi.2]; omega

/-- Window 10's block at every point is its whole array. -/
theorem whole10 (c : Dev nD) (t : Fin cfg0.N) (x : S1x64.Idx) :
    (iblk m c 10 t : Vec Ideal S1x64 .f32) x = (V m c main_v36 : S1x64.Idx → EReal) x := by
  have hi : win0_10.index t 0 = 0 ∧ win0_10.index t 1 = 0 :=
    (by decide +kernel : ∀ t : Fin grid0.N, win0_10.index t 0 = 0 ∧ win0_10.index t 1 = 0) t
  unfold iblk
  rw [View.read_apply]
  show V m c main_v36 _ = V m c main_v36 _
  congr 1
  funext a
  apply Fin.ext
  match a with
  | ⟨0, _⟩ => show win0_10.index t 0 * 1 + 1 * (x 0).val = (x 0).val; rw [hi.1]; omega
  | ⟨1, _⟩ => show win0_10.index t 1 * 64 + 1 * (x 1).val = (x 1).val; rw [hi.2]; omega

/-- Window 11's block at every point is its whole array. -/
theorem whole11 (c : Dev nD) (t : Fin cfg0.N) (x : S64x1.Idx) :
    (iblk m c 11 t : Vec Ideal S64x1 .f32) x = (V m c main_arg8 : S64x1.Idx → EReal) x := by
  have hi : win0_11.index t 0 = 0 ∧ win0_11.index t 1 = 0 :=
    (by decide +kernel : ∀ t : Fin grid0.N, win0_11.index t 0 = 0 ∧ win0_11.index t 1 = 0) t
  unfold iblk
  rw [View.read_apply]
  show V m c main_arg8 _ = V m c main_arg8 _
  congr 1
  funext a
  apply Fin.ext
  match a with
  | ⟨0, _⟩ => show win0_11.index t 0 * 64 + 1 * (x 0).val = (x 0).val; rw [hi.1]; omega
  | ⟨1, _⟩ => show win0_11.index t 1 * 1 + 1 * (x 1).val = (x 1).val; rw [hi.2]; omega

/-! ## The output array -/

theorem hz : (![0, 0] : Fin 2 → Nat) = fun _ => 0 := funext fun a => by fin_cases a <;> rfl

/-- The array of every edge's message, from the arrays as the region finds them: entry (e, k) is the message at
    coordinate k of row e of the five per-edge arrays and of the whole weight arrays. -/
def messages (c : Dev nD) : S1600000x3.Idx → EReal := fun i =>
  message eps one
    (fun a => (V m c main_v10 : S1600000x64.Idx → EReal) (ix2 (i 0) a))
    (fun a => (V m c main_v17 : S1600000x64.Idx → EReal) (ix2 (i 0) a))
    (fun a => (V m c main_arg3 : S1600000x8.Idx → EReal) (ix2 (i 0) a))
    (fun k => (V m c main_v24 : S1600000x3.Idx → EReal) (ix2 (i 0) k))
    (fun k => (V m c main_v31 : S1600000x3.Idx → EReal) (ix2 (i 0) k))
    (fun a j => (V m c main_v32 : S64x64.Idx → EReal) (ix2 a j))
    (fun a j => (V m c main_v33 : S64x64.Idx → EReal) (ix2 a j))
    (fun a j => (V m c main_v34 : S8x64.Idx → EReal) (ix2 a j))
    (fun j => (V m c main_v35 : S1x64.Idx → EReal) (ix2 (0 : Fin 1) j))
    (fun a j => (V m c main_arg6 : S64x64.Idx → EReal) (ix2 a j))
    (fun j => (V m c main_v36 : S1x64.Idx → EReal) (ix2 (0 : Fin 1) j))
    (fun j => (V m c main_arg8 : S64x1.Idx → EReal) (ix2 j (0 : Fin 1)))
    (i 1)

/-- What point `t` writes back is block `t` of the array of messages. -/
theorem flushed_eq (c : Dev nD) (t : Fin cfg0.N) :
    (dats m 0 c).flushed 12 t = ((cfg0.win 12).blk t).view.read (Elt Ideal) (messages m c) := by
  show (cfg0.win 12).cut (grid0.coords t) ((dats m 0 c).after 12 t) = _
  rw [after0_12]
  unfold out0_12
  rw [View.canon_unit_zero hz]
  simp only [View.ld_unit_zero (S := S4000x64) hz, View.ld_unit_zero (S := S4000x8) hz, View.ld_unit_zero (S := S4000x3) hz,
    View.ld_unit_zero (S := S64x64) hz, View.ld_unit_zero (S := S8x64) hz, View.ld_unit_zero (S := S1x64) hz, View.ld_unit_zero (S := S64x1) hz]
  funext j
  have hj0 : (j 0).val < 4000 := (j 0).isLt
  have hj1 : (j 1).val < 3 := (j 1).isLt
  have hi : win0_12.index t 0 = t.val ∧ win0_12.index t 1 = 0 :=
    (by decide +kernel : ∀ t : Fin grid0.N, win0_12.index t 0 = t.val ∧ win0_12.index t 1 = 0) t
  have ht : t.val < 400 := lt_of_lt_of_eq t.isLt (show cfg0.N = 400 from N_0)
  have ex : (win0 12).xinj (grid0.coords t) j = ix2 (⟨(j 0).val, hj0⟩ : Fin 4000) (⟨(j 1).val, hj1⟩ : Fin 3) :=
    funext fun a => Fin.ext (by match a with | ⟨0, _⟩ => rfl | ⟨1, _⟩ => rfl)
  have ee : ((cfg0.win 12).blk t).view.emb j = ix2 (⟨4000 * t.val + (j 0).val, by omega⟩ : Fin 1600000) (⟨(j 1).val, hj1⟩ : Fin 3) :=
    funext fun a => Fin.ext (by
      match a with
      | ⟨0, _⟩ => show win0_12.index t 0 * 4000 + 1 * (j 0).val = 4000 * t.val + (j 0).val; rw [hi.1]; omega
      | ⟨1, _⟩ => show win0_12.index t 1 * 3 + 1 * (j 1).val = (j 1).val; rw [hi.2]; omega)
  rw [View.read_apply, ee]
  show k0_pay1 (F := Ideal) _ _ _ _ _ ((win0 12).xinj (grid0.coords t) j) = _
  rw [ex]
  refine (stored_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) ⟨(j 0).val, hj0⟩ ⟨(j 1).val, hj1⟩).trans ?_
  unfold messages
  exact message_congr
    (funext fun a => rows0 m c t _ _ rfl rfl) (funext fun a => rows1 m c t _ _ rfl rfl) (funext fun a => rows2 m c t _ _ rfl rfl)
    (funext fun a => rows3 m c t _ _ rfl rfl) (funext fun a => rows4 m c t _ _ rfl rfl)
    (funext fun a => funext fun i => whole5 m c t _) (funext fun a => funext fun i => whole6 m c t _)
    (funext fun a => funext fun i => whole7 m c t _) (funext fun i => whole8 m c t _)
    (funext fun a => funext fun i => whole9 m c t _) (funext fun i => whole10 m c t _) (funext fun i => whole11 m c t _) rfl

/-- Every edge lies in some point's block: edge e in the block of point e / 4000. -/
theorem covered (i : S1600000x3.Idx) :
    ∃ t : Fin cfg0.N, (cfg0.win 12).flush t = true ∧ i ∈ ((cfg0.win 12).blk t).view.set := by
  have hi0 : (i 0).val < 1600000 := (i 0).isLt
  have hi1 : (i 1).val < 3 := (i 1).isLt
  have hN : cfg0.N = 400 := N_0
  let t : Fin cfg0.N := ⟨(i 0).val / 4000, by rw [hN]; omega⟩
  have hix : win0_12.index t 0 = t.val ∧ win0_12.index t 1 = 0 :=
    (by decide +kernel : ∀ t : Fin grid0.N, win0_12.index t 0 = t.val ∧ win0_12.index t 1 = 0) t
  have htv : t.val = (i 0).val / 4000 := rfl
  refine ⟨t, flush0_12 t, ?_⟩
  show i ∈ ((View.whole main_v37).slice (win0_12.rect t)).set
  rw [View.set_slice_whole, Rect.mem_set_unit]
  intro a
  match a with
  | ⟨0, _⟩ => show win0_12.index t 0 * 4000 ≤ (i 0).val ∧ (i 0).val < win0_12.index t 0 * 4000 + 4000; rw [hix.1, htv]; omega
  | ⟨1, _⟩ => show win0_12.index t 1 * 3 ≤ (i 1).val ∧ (i 1).val < win0_12.index t 1 * 3 + 3; rw [hix.2]; omega

/-- The kernel's output array after the run is the array of messages. -/
theorem final (c : Dev nD) : (dats m 0 c).arrAt 12 cfg0.N = messages m c :=
  (dats m 0 c).arrAt_eq_of_cover 12 (messages m c) (fun t _ => flushed_eq m c t) covered

end Cert.KernelIdeal.TileArray

end
-- ==== Proof.HostEntry.lean ====
/-
  What the kernel's pallas call finds in its operands, in terms of the program's arguments.

  The four gathered arrays (the features and the coordinates of each edge's two end points) and the vector of
  first end points are produced by the same host operations, applied to the same arguments, as the reference
  program's; so each IS the reference's stage of those arguments. The first layer's weight reaches the call as
  three row blocks of the 136-row argument (rows 0–63, 64–127 and 128–135), and the two bias vectors as single
  rows.
-/
import proofs.«100742_j19748259627798_1_alg».proof.Proof.Gen.KernelIdeal.Frame
import proofs.«100742_j19748259627798_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.HostEntry

open Cert.KernelIdeal Cert.KernelIdeal.Gen

variable (m : (ℓ : Loc nD τ sig) → Buf (Elt Ideal) ℓ)

/-! ## The gathered arrays -/

/-- The features of each edge's first end point. -/
theorem featRow_eq (c : Dev nD) : (V m c main_v10 : S1600000x64.Idx → EReal)
    = Cert.ReferenceIdeal.Read.val_main_v35 (F := Ideal) (m ((c : Thread nD τ).loc main_arg0)) (m ((c : Thread nD τ).loc main_arg2)) := by
  show StableHlo.after hostOps0 (fun b => m (c, b)) (Proc.devRef .tc main_v10) = _
  after_results
  rfl

set_option maxHeartbeats 4000000 in
/-- The features of each edge's second end point. -/
theorem featCol_eq (c : Dev nD) : (V m c main_v17 : S1600000x64.Idx → EReal)
    = Cert.ReferenceIdeal.Read.val_main_v42 (F := Ideal) (m ((c : Thread nD τ).loc main_arg0)) (m ((c : Thread nD τ).loc main_arg2)) := by
  show StableHlo.after hostOps0 (fun b => m (c, b)) (Proc.devRef .tc main_v17) = _
  after_results
  rfl

set_option maxHeartbeats 4000000 in
/-- The coordinates of each edge's first end point. -/
theorem coordRow_eq (c : Dev nD) : (V m c main_v24 : S1600000x3.Idx → EReal)
    = Cert.ReferenceIdeal.Read.val_main_v10 (F := Ideal) (m ((c : Thread nD τ).loc main_arg1)) (m ((c : Thread nD τ).loc main_arg2)) := by
  show StableHlo.after hostOps0 (fun b => m (c, b)) (Proc.devRef .tc main_v24) = _
  after_results
  rfl

set_option maxHeartbeats 4000000 in
/-- The coordinates of each edge's second end point. -/
theorem coordCol_eq (c : Dev nD) : (V m c main_v31 : S1600000x3.Idx → EReal)
    = Cert.ReferenceIdeal.Read.val_main_v17 (F := Ideal) (m ((c : Thread nD τ).loc main_arg1)) (m ((c : Thread nD τ).loc main_arg2)) := by
  show StableHlo.after hostOps0 (fun b => m (c, b)) (Proc.devRef .tc main_v31) = _
  after_results
  rfl

/-- The vector of first end points, one per edge. -/
theorem rowIdx_eq (c : Dev nD) : (V m c main_v1 : (⟨S1600000, .i32⟩ : BufTy).Contents (Elt Ideal))
    = Cert.ReferenceIdeal.Read.val_main_v1 (F := Ideal) (m ((c : Thread nD τ).loc main_arg2)) := by
  show StableHlo.after hostOps0 (fun b => m (c, b)) (Proc.devRef .tc main_v1) = _
  after_results
  rfl

/-! ## The first weight's row blocks -/

/-- Rows 0–63. -/
theorem w1a_apply (c : Dev nD) (a j : Fin 64) : (V m c main_v32 : S64x64.Idx → EReal) (ix2 a j)
    = (m ((c : Thread nD τ).loc main_arg4) : S136x64.Idx → EReal) (ix2 (⟨a.val, by omega⟩ : Fin 136) j) := by
  have e : (V m c main_v32 : S64x64.Idx → EReal)
      = extractStridedSlice S64x64 ![0, 0] (m ((c : Thread nD τ).loc main_arg4) : S136x64.Idx → EReal) slices_S136x64_S64x64_0_0 := by
    show StableHlo.after hostOps0 (fun b => m (c, b)) (Proc.devRef .tc main_v32) = _
    after_results
  rw [e]
  exact extractStridedSlice_apply _ _ _ _ _ fun ax => by
    match ax with
    | ⟨0, _⟩ => show a.val = 0 + a.val; omega
    | ⟨1, _⟩ => show j.val = 0 + j.val; omega

/-- Rows 64–127. -/
theorem w1b_apply (c : Dev nD) (a j : Fin 64) : (V m c main_v33 : S64x64.Idx → EReal) (ix2 a j)
    = (m ((c : Thread nD τ).loc main_arg4) : S136x64.Idx → EReal) (ix2 (⟨64 + a.val, by omega⟩ : Fin 136) j) := by
  have e : (V m c main_v33 : S64x64.Idx → EReal)
      = extractStridedSlice S64x64 ![64, 0] (m ((c : Thread nD τ).loc main_arg4) : S136x64.Idx → EReal) slices_S136x64_S64x64_64_0 := by
    show StableHlo.after hostOps0 (fun b => m (c, b)) (Proc.devRef .tc main_v33) = _
    after_results
  rw [e]
  exact extractStridedSlice_apply _ _ _ _ _ fun ax => by
    match ax with
    | ⟨0, _⟩ => show 64 + a.val = 64 + a.val; rfl
    | ⟨1, _⟩ => show j.val = 0 + j.val; omega

/-- Rows 128–135. -/
theorem w1c_apply (c : Dev nD) (a : Fin 8) (j : Fin 64) : (V m c main_v34 : S8x64.Idx → EReal) (ix2 a j)
    = (m ((c : Thread nD τ).loc main_arg4) : S136x64.Idx → EReal) (ix2 (⟨128 + a.val, by omega⟩ : Fin 136) j) := by
  have e : (V m c main_v34 : S8x64.Idx → EReal)
      = extractStridedSlice S8x64 ![128, 0] (m ((c : Thread nD τ).loc main_arg4) : S136x64.Idx → EReal) slices_S136x64_S8x64_128_0 := by
    show StableHlo.after hostOps0 (fun b => m (c, b)) (Proc.devRef .tc main_v34) = _
    after_results
  rw [e]
  exact extractStridedSlice_apply _ _ _ _ _ fun ax => by
    match ax with
    | ⟨0, _⟩ => show 128 + a.val = 128 + a.val; rfl
    | ⟨1, _⟩ => show j.val = 0 + j.val; omega

/-! ## The bias rows -/

/-- The first bias as a single row. -/
theorem b1_apply (c : Dev nD) (j : Fin 64) : (V m c main_v35 : S1x64.Idx → EReal) (ix2 (0 : Fin 1) j)
    = (m ((c : Thread nD τ).loc main_arg5) : S64.Idx → EReal) (ix1 j) := by
  have e : (V m c main_v35 : S1x64.Idx → EReal)
      = shapeCast S1x64 (m ((c : Thread nD τ).loc main_arg5) : S64.Idx → EReal) shapeCasts_S64_S1x64 := by
    show StableHlo.after hostOps0 (fun b => m (c, b)) (Proc.devRef .tc main_v35) = _
    after_results
    rfl
  rw [e]
  exact shapeCast_a_1a_apply _ _ 0 j

/-- The second bias as a single row. -/
theorem b2_apply (c : Dev nD) (j : Fin 64) : (V m c main_v36 : S1x64.Idx → EReal) (ix2 (0 : Fin 1) j)
    = (m ((c : Thread nD τ).loc main_arg7) : S64.Idx → EReal) (ix1 j) := by
  have e : (V m c main_v36 : S1x64.Idx → EReal)
      = shapeCast S1x64 (m ((c : Thread nD τ).loc main_arg7) : S64.Idx → EReal) shapeCasts_S64_S1x64 := by
    show StableHlo.after hostOps0 (fun b => m (c, b)) (Proc.devRef .tc main_v36) = _
    after_results
    rfl
  rw [e]
  exact shapeCast_a_1a_apply _ _ 0 j

end Cert.KernelIdeal.HostEntry

end
-- ==== Proof.HostExit.lean ====
/-
  After the pallas call both programs do the same thing with the per-edge messages: add up, for each node, the
  messages of the edges whose first end point it is; divide by 100; add the node's coordinates. That aggregation
  is carried here as ONE function of the coordinates, the edge list and the array of messages — it is never opened —
  and the kernel program's result is shown to be it, applied to the output array of the call.
-/
import proofs.«100742_j19748259627798_1_alg».proof.Proof.Gen.KernelIdeal.Frame
import proofs.«100742_j19748259627798_1_alg».proof.Proof.Gen.ReferenceIdeal.Read
import proofs.«100742_j19748259627798_1_alg».proof.Proof.TileArray
import proofs.«100742_j19748259627798_1_alg».proof.Proof.HostEntry
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.EdgeMessage

/-- Node by node: the coordinates plus one hundredth of the sum of the messages of the edges that start at the node.
    Spelled with the reference program's own stages so that its result is this function by unfolding. -/
def aggregate (coord : FVec Ideal Cert.ReferenceIdeal.S50000x3 .f32)
    (edges : (⟨Cert.ReferenceIdeal.S2x1600000, .i32⟩ : BufTy).Contents (Elt Ideal))
    (msgs : FVec Ideal Cert.ReferenceIdeal.S1600000x3 .f32) : FVec Ideal Cert.ReferenceIdeal.S50000x3 .f32 :=
  addf coord
    (Host.divf
      (Host.scatterAdd (F := Ideal) Cert.ReferenceIdeal.scatter_S50000x3_S1600000x1_S1600000x3_1_0_0_1
        (Cert.ReferenceIdeal.Read.val_main_v57 (F := Ideal)) (Cert.ReferenceIdeal.Read.val_main_v58 (F := Ideal) edges) msgs)
      (Cert.ReferenceIdeal.Read.val_main_v60 (F := Ideal)))

end Cert.EdgeMessage

namespace Cert.KernelIdeal.HostExit

open Cert.KernelIdeal Cert.KernelIdeal.Gen Cert.EdgeMessage

variable (m : (ℓ : Loc nD τ sig) → Buf (Elt Ideal) ℓ)

/-- The kernel program's result is the aggregation of the call's output array. -/
theorem result_eq (c : Dev nD) :
    Pipeline.afterTail₀ cfgs (dats m) 0 (V0 m) [hostOps1] c main_v43
      = aggregate (m ((c : Thread nD τ).loc main_arg1)) (m ((c : Thread nD τ).loc main_arg2)) (TileArray.messages m c) := by
  unfold Pipeline.afterTail₀
  show StableHlo.after hostOps1 _ (Proc.devRef .tc main_v43) = _
  after_results
  rw [Pipeline.withArrays_of_ne _ c (V0 m c) _ main_arg1 (by exact (by decide : ∀ w, Pipeline.arrRef spec0 w ≠ main_arg1)),
    Pipeline.withArrays_of_ne _ c (V0 m c) _ main_v1 (by exact (by decide : ∀ w, Pipeline.arrRef spec0 w ≠ main_v1)),
    Pipeline.withArrays_arr spec0 launch0.win.arr_inj c _ _ 12]
  have h1 : V0 m c (Proc.devRef .tc main_arg1) = m ((c : Thread nD τ).loc main_arg1) := V_main_arg1 m c
  have h2 : V0 m c (Proc.devRef .tc main_v1)
      = Cert.ReferenceIdeal.Read.val_main_v1 (F := Ideal) (m ((c : Thread nD τ).loc main_arg2)) := HostEntry.rowIdx_eq m c
  have h3 : (dats m 0 c).arrAt 12 (cfgs 0).N = TileArray.messages m c := TileArray.final m c
  rw [h1, h2, h3]
  rfl

end Cert.KernelIdeal.HostExit

end
-- ==== Proof.RefMessage.lean ====
/-
  The reference program's per-edge product, read at edge `e` and coordinate `k`, is the edge's message
  (Proof/EdgeMessage.lean) of the gathered rows and of the weights: the features of the two end points and the
  edge attributes are joined into one vector of 136 entries and multiplied by the 136-row first weight, which is
  the sum of the three row blocks' products (`EdgeMessage.sum_rows_136`); the activation is spelled
  x · (1 / (1 + exp (−x))), which is x · logistic x on the extended reals.
-/
import proofs.«100742_j19748259627798_1_alg».proof.Proof.Gen.ReferenceIdeal.Read
import proofs.«100742_j19748259627798_1_alg».proof.Proof.EdgeMessage
import Idealize.ShloMosaic.Lib.IdealHost

noncomputable section

namespace Cert.ReferenceIdeal.RefMessage

open Idealize.ShloMosaic Idealize.ShloMosaic.ValueIdx Cert.ReferenceIdeal Cert.ReferenceIdeal.Read Cert.EdgeMessage

/-- The smoothing constant under the square root, as the program spells it. -/
abbrev eps : EReal := Ideal.ofBits .f32 0x322BCC77#32
/-- The constant added to the length. -/
abbrev one : EReal := Ideal.ofBits .f32 0x3F800000#32

section Layers

variable (x0 : (⟨S50000x64, .f32⟩ : BufTy).Contents (Elt Ideal)) (x1 : (⟨S50000x3, .f32⟩ : BufTy).Contents (Elt Ideal))
  (x2 : (⟨S2x1600000, .i32⟩ : BufTy).Contents (Elt Ideal)) (x3 : (⟨S1600000x8, .f32⟩ : BufTy).Contents (Elt Ideal))
  (x4 : (⟨S136x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x1, .f32⟩ : BufTy).Contents (Elt Ideal))

/-- The activation as the program spells it, x · (1 / (1 + exp (−x))) with both ones the float word of one, is
    x · logistic x. -/
theorem silu_spelled (x : EReal) :
    x * Ideal.div (Ideal.ofBits .f32 0x3F800000#32) (Ideal.ofBits .f32 0x3F800000#32 + Ideal.exp (-x)) = silu x := by
  rw [Ideal.ofBits_one_f32]
  rfl

/-- The coordinate difference over one plus the smoothed length, at edge e and coordinate k. -/
theorem direction_apply (e : Fin 1600000) (k : Fin 3) :
    val_main_v28 (F := Ideal) x1 x2 (ix2 e k)
      = direction eps one (fun j => val_main_v10 (F := Ideal) x1 x2 (ix2 e j))
          (fun j => val_main_v17 (F := Ideal) x1 x2 (ix2 e j)) k := by
  have hsum : ∀ j : Fin 3, idx_main_v20 (idx_main_v21 (idx_main_v27 (ix2 e k))) j = ix2 e j := fun j =>
    funext fun a => Fin.ext (by match a with | ⟨0, _⟩ => rfl | ⟨1, _⟩ => rfl)
  rw [val_main_v28_apply, val_main_v27_apply, val_main_v26_apply, val_main_v25_apply, val_main_cst_4_apply,
    val_main_v24_apply, val_main_v23_apply, val_main_v22_apply, val_main_cst_3_apply, val_main_v21_apply,
    val_main_v20_apply, val_main_cst_apply]
  simp only [hsum, val_main_v19_apply, val_main_v18_apply, Ideal.hostDivf_def, Ideal.addf_def, Ideal.mulf_def,
    Ideal.subf_def, Ideal.hostUnary_sqrt_def, Ideal.ofBits_def, Ideal.ofBits_zero_f32, zero_add]
  rfl

/-- The first activation, at any index. -/
theorem act1_apply (j : S1600000x64.Idx) :
    val_main_v48 (F := Ideal) x0 x2 x3 x4 x5 j = silu (val_main_v47 (F := Ideal) x0 x2 x3 x4 x5 j) := by
  rw [val_main_v48_apply, val_main_call0_v5_apply, val_main_call0_v4_apply, val_main_call0_cst_0_apply,
    val_main_call0_v3_apply, val_main_call0_v2_apply, val_main_call0_cst_apply, val_main_call0_v1_apply,
    val_main_call0_v0_apply]
  generalize val_main_v47 (F := Ideal) x0 x2 x3 x4 x5 j = x
  simp only [Ideal.mulf_def, Ideal.hostDivf_def, Ideal.addf_def, Ideal.hostUnary_exp_def, Ideal.hostNegf_def,
    Ideal.negf_def, Ideal.ofBits_def]
  exact silu_spelled x

/-- The second activation, at any index. -/
theorem act2_apply (j : S1600000x64.Idx) :
    val_main_v53 (F := Ideal) x0 x2 x3 x4 x5 x6 x7 j = silu (val_main_v52 (F := Ideal) x0 x2 x3 x4 x5 x6 x7 j) := by
  rw [val_main_v53_apply, val_main_call1_v5_apply, val_main_call1_v4_apply, val_main_call1_cst_0_apply,
    val_main_call1_v3_apply, val_main_call1_v2_apply, val_main_call1_cst_apply, val_main_call1_v1_apply,
    val_main_call1_v0_apply]
  generalize val_main_v52 (F := Ideal) x0 x2 x3 x4 x5 x6 x7 j = x
  simp only [Ideal.mulf_def, Ideal.hostDivf_def, Ideal.addf_def, Ideal.hostUnary_exp_def, Ideal.hostNegf_def,
    Ideal.negf_def, Ideal.ofBits_def]
  exact silu_spelled x

/-- Columns 0 to 63 of the joined feature vector are the first end point's features. -/
theorem joined_first (e : Fin 1600000) (a : Fin 64) :
    val_main_v43 (F := Ideal) x0 x2 x3 (ix2 e (⟨a.val, by omega⟩ : Fin 136))
      = val_main_v35 (F := Ideal) x0 x2 (ix2 e a) := by
  unfold val_main_v43
  generalize val_main_v35 (F := Ideal) x0 x2 = y0
  generalize val_main_v42 (F := Ideal) x0 x2 = y1
  exact concatenate_apply_piece (1 : Fin S1600000x136.rank) _ _
    (ix2 e (⟨a.val, by omega⟩ : Fin 136)) 0 (by show 0 < 3; omega) S1600000x64 y0 rfl rfl 0 rfl (ix2 e a)
    (fun b hb => by match b with | ⟨0, _⟩ => rfl | ⟨1, _⟩ => exact absurd rfl hb)
    (by show 0 + a.val = a.val; omega)

/-- Columns 64 to 127 of the joined feature vector are the second end point's features. -/
theorem joined_second (e : Fin 1600000) (a : Fin 64) :
    val_main_v43 (F := Ideal) x0 x2 x3 (ix2 e (⟨64 + a.val, by omega⟩ : Fin 136))
      = val_main_v42 (F := Ideal) x0 x2 (ix2 e a) := by
  unfold val_main_v43
  generalize val_main_v35 (F := Ideal) x0 x2 = y0
  generalize val_main_v42 (F := Ideal) x0 x2 = y1
  exact concatenate_apply_piece (1 : Fin S1600000x136.rank) _ _
    (ix2 e (⟨64 + a.val, by omega⟩ : Fin 136)) 1 (by show 1 < 3; omega) S1600000x64 y1 rfl rfl 64 rfl (ix2 e a)
    (fun b hb => by match b with | ⟨0, _⟩ => rfl | ⟨1, _⟩ => exact absurd rfl hb)
    (by show 64 + a.val = 64 + a.val; rfl)

/-- Columns 128 to 135 of the joined feature vector are the edge's attributes. -/
theorem joined_third (e : Fin 1600000) (a : Fin 8) :
    val_main_v43 (F := Ideal) x0 x2 x3 (ix2 e (⟨128 + a.val, by omega⟩ : Fin 136)) = x3 (ix2 e a) := by
  unfold val_main_v43
  generalize val_main_v35 (F := Ideal) x0 x2 = y0
  generalize val_main_v42 (F := Ideal) x0 x2 = y1
  exact concatenate_apply_piece (1 : Fin S1600000x136.rank) _ _
    (ix2 e (⟨128 + a.val, by omega⟩ : Fin 136)) 2 (by show 2 < 3; omega) S1600000x8 x3 rfl rfl 128 rfl (ix2 e a)
    (fun b hb => by match b with | ⟨0, _⟩ => rfl | ⟨1, _⟩ => exact absurd rfl hb)
    (by show 128 + a.val = 128 + a.val; rfl)

end Layers

section Layers2

variable (x0 : (⟨S50000x64, .f32⟩ : BufTy).Contents (Elt Ideal)) (x1 : (⟨S50000x3, .f32⟩ : BufTy).Contents (Elt Ideal))
  (x2 : (⟨S2x1600000, .i32⟩ : BufTy).Contents (Elt Ideal)) (x3 : (⟨S1600000x8, .f32⟩ : BufTy).Contents (Elt Ideal))
  (x4 : (⟨S136x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x1, .f32⟩ : BufTy).Contents (Elt Ideal))

/-- The first layer before its activation, at edge e and unit i: the product of the joined vector with the 136-row
    weight is the sum of the three row blocks' products, each read through the joined vector's three pieces. -/
theorem layer1_apply (e : Fin 1600000) (i : Fin 64) :
    val_main_v47 (F := Ideal) x0 x2 x3 x4 x5 (ix2 e i)
      = hidden1 (fun a => val_main_v35 (F := Ideal) x0 x2 (ix2 e a)) (fun a => val_main_v42 (F := Ideal) x0 x2 (ix2 e a))
          (fun a => x3 (ix2 e a))
          (fun a i => x4 (ix2 (⟨a.val, by omega⟩ : Fin 136) i)) (fun a i => x4 (ix2 (⟨64 + a.val, by omega⟩ : Fin 136) i))
          (fun a i => x4 (ix2 (⟨128 + a.val, by omega⟩ : Fin 136) i)) (fun i => x5 (ix1 i)) i := by
  have hl : ∀ k : Fin 136, lidx_main_v44 (ix2 e i) k = ix2 e k := fun k =>
    funext fun a => Fin.ext (by match a with | ⟨0, _⟩ => rfl | ⟨1, _⟩ => rfl)
  have hr : ∀ k : Fin 136, ridx_main_v44 (ix2 e i) k = ix2 k i := fun k =>
    funext fun a => Fin.ext (by match a with | ⟨0, _⟩ => rfl | ⟨1, _⟩ => rfl)
  have hb : idx_main_v45 (idx_main_v46 (ix2 e i)) = ix1 i :=
    funext fun a => Fin.ext (by match a with | ⟨0, _⟩ => rfl)
  rw [val_main_v47_apply, val_main_v44_apply, val_main_v46_apply, val_main_v45_apply, hb]
  simp only [hl, hr]
  rw [sum_rows_136]
  simp only [joined_first, joined_second, joined_third, Ideal.addf_def]
  rfl

/-- The second layer before its activation, at edge e and unit j. -/
theorem layer2_apply (e : Fin 1600000) (j : Fin 64) :
    val_main_v52 (F := Ideal) x0 x2 x3 x4 x5 x6 x7 (ix2 e j)
      = hidden2 (fun i => val_main_v47 (F := Ideal) x0 x2 x3 x4 x5 (ix2 e i)) (fun i j => x6 (ix2 i j))
          (fun j => x7 (ix1 j)) j := by
  have hl : ∀ k : Fin 64, lidx_main_v49 (ix2 e j) k = ix2 e k := fun k =>
    funext fun a => Fin.ext (by match a with | ⟨0, _⟩ => rfl | ⟨1, _⟩ => rfl)
  have hr : ∀ k : Fin 64, ridx_main_v49 (ix2 e j) k = ix2 k j := fun k =>
    funext fun a => Fin.ext (by match a with | ⟨0, _⟩ => rfl | ⟨1, _⟩ => rfl)
  have hb : idx_main_v50 (idx_main_v51 (ix2 e j)) = ix1 j :=
    funext fun a => Fin.ext (by match a with | ⟨0, _⟩ => rfl)
  rw [val_main_v52_apply, val_main_v49_apply, val_main_v51_apply, val_main_v50_apply, hb]
  simp only [hl, hr, act1_apply, Ideal.addf_def]
  rfl

/-- The scalar gate of edge e. -/
theorem gate_apply (e : Fin 1600000) :
    val_main_v54 (F := Ideal) x0 x2 x3 x4 x5 x6 x7 x8 (ix2 e (0 : Fin 1))
      = gate (fun j => val_main_v52 (F := Ideal) x0 x2 x3 x4 x5 x6 x7 (ix2 e j)) (fun j => x8 (ix2 j (0 : Fin 1))) := by
  have hl : ∀ k : Fin 64, lidx_main_v54 (ix2 e (0 : Fin 1)) k = ix2 e k := fun k =>
    funext fun a => Fin.ext (by match a with | ⟨0, _⟩ => rfl | ⟨1, _⟩ => rfl)
  have hr : ∀ k : Fin 64, ridx_main_v54 (ix2 e (0 : Fin 1)) k = ix2 k (0 : Fin 1) := fun k =>
    funext fun a => Fin.ext (by match a with | ⟨0, _⟩ => rfl | ⟨1, _⟩ => rfl)
  rw [val_main_v54_apply]
  simp only [hl, hr, act2_apply]
  rfl

end Layers2

/-- The per-edge product of the reference at (e, k) is the message of edge e at coordinate k. -/
theorem trans_apply (x0 : (⟨S50000x64, .f32⟩ : BufTy).Contents (Elt Ideal)) (x1 : (⟨S50000x3, .f32⟩ : BufTy).Contents (Elt Ideal))
    (x2 : (⟨S2x1600000, .i32⟩ : BufTy).Contents (Elt Ideal)) (x3 : (⟨S1600000x8, .f32⟩ : BufTy).Contents (Elt Ideal))
    (x4 : (⟨S136x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x1, .f32⟩ : BufTy).Contents (Elt Ideal)) (e : Fin 1600000) (k : Fin 3) :
    val_main_v56 (F := Ideal) x0 x1 x2 x3 x4 x5 x6 x7 x8 (ix2 e k)
      = message eps one (fun a => val_main_v35 (F := Ideal) x0 x2 (ix2 e a)) (fun a => val_main_v42 (F := Ideal) x0 x2 (ix2 e a))
          (fun a => x3 (ix2 e a))
          (fun j => val_main_v10 (F := Ideal) x1 x2 (ix2 e j)) (fun j => val_main_v17 (F := Ideal) x1 x2 (ix2 e j))
          (fun a i => x4 (ix2 (⟨a.val, by omega⟩ : Fin 136) i)) (fun a i => x4 (ix2 (⟨64 + a.val, by omega⟩ : Fin 136) i))
          (fun a i => x4 (ix2 (⟨128 + a.val, by omega⟩ : Fin 136) i)) (fun i => x5 (ix1 i))
          (fun i j => x6 (ix2 i j)) (fun j => x7 (ix1 j)) (fun j => x8 (ix2 j (0 : Fin 1))) k := by
  have hg : idx_main_v55 (ix2 e k) = ix2 e (0 : Fin 1) :=
    funext fun a => Fin.ext (by match a with | ⟨0, _⟩ => rfl | ⟨1, _⟩ => rfl)
  have h1 : (fun i => val_main_v47 (F := Ideal) x0 x2 x3 x4 x5 (ix2 e i))
      = hidden1 (fun a => val_main_v35 (F := Ideal) x0 x2 (ix2 e a)) (fun a => val_main_v42 (F := Ideal) x0 x2 (ix2 e a))
          (fun a => x3 (ix2 e a))
          (fun a i => x4 (ix2 (⟨a.val, by omega⟩ : Fin 136) i)) (fun a i => x4 (ix2 (⟨64 + a.val, by omega⟩ : Fin 136) i))
          (fun a i => x4 (ix2 (⟨128 + a.val, by omega⟩ : Fin 136) i)) (fun i => x5 (ix1 i)) :=
    funext fun i => layer1_apply x0 x2 x3 x4 x5 e i
  have h2 : (fun j => val_main_v52 (F := Ideal) x0 x2 x3 x4 x5 x6 x7 (ix2 e j))
      = hidden2 (fun i => val_main_v47 (F := Ideal) x0 x2 x3 x4 x5 (ix2 e i)) (fun i j => x6 (ix2 i j))
          (fun j => x7 (ix1 j)) :=
    funext fun j => layer2_apply x0 x2 x3 x4 x5 x6 x7 e j
  rw [val_main_v56_apply, val_main_v55_apply, hg, direction_apply, gate_apply, h2, h1, Ideal.mulf_def]
  rfl

end Cert.ReferenceIdeal.RefMessage

end
-- ==== Proof.lean ====
/-
  The certificate of an equivariant graph layer's coordinate update: a Pallas kernel that computes, tile by tile,
  each edge's message — the coordinate difference of its end points over one plus its smoothed length, times a
  scalar gate from a three-layer perceptron (SiLU activations) on the end points' features and the edge's
  attributes — against the plain reference. Both programs gather the same rows, and both finish by the same
  aggregation (sum the messages per first end point, divide by 100, add the coordinates).

  Over the extended reals the two per-edge computations are one function (Proof/EdgeMessage.lean):
  the kernel's three matrix products of the first weight's row blocks are the reference's single product with the
  136-row weight of the joined feature vector, a sum over 136 terms split 64 + 64 + 8 (a law of commutative
  monoids, so no finiteness of the inputs is used); a change of float format is the identity; the kernel's
  logistic is 1 / (1 + exp (−x)), the reference's spelling. The kernel's tiles cover every edge
  (Proof/TileArray.lean), so the pallas call's output array is the reference's per-edge product, and the shared
  aggregation of equal arrays is equal.

  The three frames are the generated ones (the reference's from its generated run); the idealization pass
  rewrote nothing, so `preserves` is trivial.
-/
import proofs.«100742_j19748259627798_1_alg».proof.Defs
import proofs.«100742_j19748259627798_1_alg».proof.Proof.Gen.Kernel
import proofs.«100742_j19748259627798_1_alg».proof.Proof.Gen.Kernel.Skeleton
import proofs.«100742_j19748259627798_1_alg».proof.Proof.Gen.Kernel.Launch
import proofs.«100742_j19748259627798_1_alg».proof.Proof.Gen.Kernel.Points
import proofs.«100742_j19748259627798_1_alg».proof.Proof.Gen.Kernel.Frame
import proofs.«100742_j19748259627798_1_alg».proof.Proof.Gen.KernelIdeal
import proofs.«100742_j19748259627798_1_alg».proof.Proof.Gen.KernelIdeal.Skeleton
import proofs.«100742_j19748259627798_1_alg».proof.Proof.Gen.KernelIdeal.Launch
import proofs.«100742_j19748259627798_1_alg».proof.Proof.Gen.KernelIdeal.Points
import proofs.«100742_j19748259627798_1_alg».proof.Proof.Gen.KernelIdeal.Frame
import proofs.«100742_j19748259627798_1_alg».proof.Proof.Gen.ReferenceIdeal
import proofs.«100742_j19748259627798_1_alg».proof.Proof.Gen.Pre_finite_inputs
import proofs.«100742_j19748259627798_1_alg».proof.Proof.Gen.ReferenceIdeal.Run
import proofs.«100742_j19748259627798_1_alg».proof.Proof.Gen.ReferenceIdeal.Read
import proofs.«100742_j19748259627798_1_alg».proof.Proof.HostExit
import proofs.«100742_j19748259627798_1_alg».proof.Proof.RefMessage
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.EdgeMessage

/-! ## The kernel program's run, read -/

/-- Every weakly fair execution of the idealized kernel program ends with its result at the aggregation of the
    array of messages and its arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v43)
          = aggregate (m ((c.tc : Thread Cert.KernelIdeal.nD Cert.KernelIdeal.τ).loc Cert.KernelIdeal.main_arg1)) (m ((c.tc : Thread Cert.KernelIdeal.nD Cert.KernelIdeal.τ).loc Cert.KernelIdeal.main_arg2))
              (Cert.KernelIdeal.TileArray.messages m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun _ h c =>
    ⟨((h c).2 Cert.KernelIdeal.main_v43 (Pipeline.mem_restRefs_of Cert.KernelIdeal.main_v43 (by decide) (by decide))).trans (Cert.KernelIdeal.HostExit.result_eq m c),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).1 2).trans (((Cert.KernelIdeal.Gen.dats m 0 c).arrAt_in 2 rfl _).trans ((Cert.KernelIdeal.Gen.A_eq m c 2).trans (Cert.KernelIdeal.Gen.V_main_arg3 m c))),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).1 9).trans (((Cert.KernelIdeal.Gen.dats m 0 c).arrAt_in 9 rfl _).trans ((Cert.KernelIdeal.Gen.A_eq m c 9).trans (Cert.KernelIdeal.Gen.V_main_arg6 m c))),
      ((h c).2 Cert.KernelIdeal.main_arg7 (Pipeline.mem_restRefs_of Cert.KernelIdeal.main_arg7 (by decide) (by decide))).trans (Cert.KernelIdeal.Gen.W_main_arg7 m (Cert.KernelIdeal.Gen.dats m) c),
      ((h c).1 11).trans (((Cert.KernelIdeal.Gen.dats m 0 c).arrAt_in 11 rfl _).trans ((Cert.KernelIdeal.Gen.A_eq m c 11).trans (Cert.KernelIdeal.Gen.V_main_arg8 m c)))⟩)
    (Cert.KernelIdeal.Gen.run_main m ρ)

/-! ## The reference's result is the same aggregation of the same array -/

/-- The reference's last stage is the aggregation of its per-edge product: by unfolding its last four stages. -/
theorem ref_aggregate (x0 : (⟨Cert.ReferenceIdeal.S50000x64, .f32⟩ : BufTy).Contents (Elt Ideal)) (x1 : (⟨Cert.ReferenceIdeal.S50000x3, .f32⟩ : BufTy).Contents (Elt Ideal))
    (x2 : (⟨Cert.ReferenceIdeal.S2x1600000, .i32⟩ : BufTy).Contents (Elt Ideal)) (x3 : (⟨Cert.ReferenceIdeal.S1600000x8, .f32⟩ : BufTy).Contents (Elt Ideal))
    (x4 : (⟨Cert.ReferenceIdeal.S136x64, .f32⟩ : BufTy).Contents (Elt Ideal)) (x5 : (⟨Cert.ReferenceIdeal.S64, .f32⟩ : BufTy).Contents (Elt Ideal))
    (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S64x1, .f32⟩ : BufTy).Contents (Elt Ideal)) :
    Cert.ReferenceIdeal.Read.val_main_v62 (F := Ideal) x0 x1 x2 x3 x4 x5 x6 x7 x8
      = aggregate x1 x2 (Cert.ReferenceIdeal.Read.val_main_v56 (F := Ideal) x0 x1 x2 x3 x4 x5 x6 x7 x8) := rfl

/-- The reference's per-edge product of the kernel program's arguments is the kernel's array of messages: edge by
    edge both are the message of the same gathered rows and the same weights. -/
theorem ref_messages (m : (ℓ : Loc Cert.KernelIdeal.nD Cert.KernelIdeal.τ Cert.KernelIdeal.sig) → Buf (Elt Ideal) ℓ) (c : Dev Cert.KernelIdeal.nD) :
    Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = Cert.KernelIdeal.TileArray.messages m c := by
  funext i
  obtain ⟨e, k, rfl⟩ : ∃ (e : Fin 1600000) (k : Fin 3), i = ix2 e k := ⟨i 0, i 1, eq_ix2 i⟩
  refine (Cert.ReferenceIdeal.RefMessage.trans_apply _ _ _ _ _ _ _ _ _ e k).trans ?_
  unfold Cert.KernelIdeal.TileArray.messages
  exact Cert.KernelIdeal.TileArray.message_congr
    (funext fun a => (congrFun (Cert.KernelIdeal.HostEntry.featRow_eq m c) (ix2 e a)).symm)
    (funext fun a => (congrFun (Cert.KernelIdeal.HostEntry.featCol_eq m c) (ix2 e a)).symm)
    (funext fun a => (congrFun (Cert.KernelIdeal.Gen.V_main_arg3 m c) (ix2 e a)).symm)
    (funext fun j => (congrFun (Cert.KernelIdeal.HostEntry.coordRow_eq m c) (ix2 e j)).symm)
    (funext fun j => (congrFun (Cert.KernelIdeal.HostEntry.coordCol_eq m c) (ix2 e j)).symm)
    (funext fun a => funext fun j => (Cert.KernelIdeal.HostEntry.w1a_apply m c a j).symm)
    (funext fun a => funext fun j => (Cert.KernelIdeal.HostEntry.w1b_apply m c a j).symm)
    (funext fun a => funext fun j => (Cert.KernelIdeal.HostEntry.w1c_apply m c a j).symm)
    (funext fun j => (Cert.KernelIdeal.HostEntry.b1_apply m c j).symm)
    (funext fun a => funext fun j => (congrFun (Cert.KernelIdeal.Gen.V_main_arg6 m c) (ix2 a j)).symm)
    (funext fun j => (Cert.KernelIdeal.HostEntry.b2_apply m c j).symm)
    (funext fun j => (congrFun (Cert.KernelIdeal.Gen.V_main_arg8 m c) (ix2 j (0 : Fin 1))).symm)
    rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both idealized programs end with the aggregation of one and the
    same array of messages. -/
theorem algebraic : Cert.algebraic_KernelIdeal_ReferenceIdeal := by
  intro m ρ m' ρ' _ hagree
  refine ⟨fun c => aggregate (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.KernelIdeal.TileArray.messages m c), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v62_eq, a0, a1, a2, a3, a4, a5, a6, a7, a8, ref_aggregate, ref_messages m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
